-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x16 .f32) (main_arg3 : FVec F S16 .f32) (main_arg4 : FVec F S16x40 .f32) (main_arg5 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x16 .f32 := Host.absf main_arg2
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x16 : Shape := ⟨2, ![100000, 16]⟩
abbrev S2000x256 : Shape := ⟨2, ![2000, 256]⟩
abbrev S2000x1 : Shape := ⟨2, ![2000, 1]⟩
abbrev S2000x16 : Shape := ⟨2, ![2000, 16]⟩
abbrev S3200000x16 : Shape := ⟨2, ![3200000, 16]⟩
abbrev S1x16 : Shape := ⟨2, ![1, 16]⟩
abbrev S100000x40 : Shape := ⟨2, ![100000, 40]⟩
abbrev S2000x40 : Shape := ⟨2, ![2000, 40]⟩
abbrev S3200000x40 : Shape := ⟨2, ![3200000, 40]⟩
abbrev S1x40 : Shape := ⟨2, ![1, 40]⟩

abbrev nBuf : Space → Nat
  | .hbm => 60
  | .vmem => 32
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x16, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000x16, .f32⟩
  | .hbm, ⟨38, _⟩ => ⟨S_, .f32⟩
  | .hbm, ⟨39, _⟩ => ⟨S100000x16, .f32⟩
  | .hbm, ⟨40, _⟩ => ⟨S3200000x1, .i32⟩
  | .hbm, ⟨41, _⟩ => ⟨S100000x16, .f32⟩
  | .hbm, ⟨42, _⟩ => ⟨S1x16, .f32⟩
  | .hbm, ⟨43, _⟩ => ⟨S100000x16, .f32⟩
  | .hbm, ⟨44, _⟩ => ⟨S100000x40, .f32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S3200000x40, .f32⟩
  | .hbm, ⟨54, _⟩ => ⟨S_, .f32⟩
  | .hbm, ⟨55, _⟩ => ⟨S100000x40, .f32⟩
  | .hbm, ⟨56, _⟩ => ⟨S3200000x1, .i32⟩
  | .hbm, ⟨57, _⟩ => ⟨S100000x40, .f32⟩
  | .hbm, ⟨58, _⟩ => ⟨S1x40, .f32⟩
  | .hbm, ⟨59, _⟩ => ⟨S100000x40, .f32⟩
  | .local _ .vmem, ⟨0, _⟩ => ⟨S2000x256, .f32⟩
  | .local _ .vmem, ⟨1, _⟩ => ⟨S2000x256, .f32⟩
  | .local _ .vmem, ⟨2, _⟩ => ⟨S256x16, .f32⟩
  | .local _ .vmem, ⟨3, _⟩ => ⟨S2000x1, .f32⟩
  | .local _ .vmem, ⟨4, _⟩ => ⟨S2000x1, .f32⟩
  | .local _ .vmem, ⟨5, _⟩ => ⟨S2000x16, .f32⟩
  | .local _ .vmem, ⟨6, _⟩ => ⟨S2000x16, .f32⟩
  | .local _ .vmem, ⟨7, _⟩ => ⟨S2000x16, .f32⟩
  | .local _ .vmem, ⟨8, _⟩ => ⟨S2000x16, .f32⟩
  | .local _ .vmem, ⟨9, _⟩ => ⟨S2000x16, .f32⟩
  | .local _ .vmem, ⟨10, _⟩ => ⟨S2000x16, .f32⟩
  | .local _ .vmem, ⟨11, _⟩ => ⟨S2000x1, .f32⟩
  | .local _ .vmem, ⟨12, _⟩ => ⟨S2000x1, .f32⟩
  | .local _ .vmem, ⟨13, _⟩ => ⟨S1x16, .f32⟩
  | .local _ .vmem, ⟨14, _⟩ => ⟨S2000x16, .f32⟩
  | .local _ .vmem, ⟨15, _⟩ => ⟨S2000x16, .f32⟩
  | .local _ .vmem, ⟨16, _⟩ => ⟨S2000x16, .f32⟩
  | .local _ .vmem, ⟨17, _⟩ => ⟨S2000x16, .f32⟩
  | .local _ .vmem, ⟨18, _⟩ => ⟨S16x40, .f32⟩
  | .local _ .vmem, ⟨19, _⟩ => ⟨S2000x1, .f32⟩
  | .local _ .vmem, ⟨20, _⟩ => ⟨S2000x1, .f32⟩
  | .local _ .vmem, ⟨21, _⟩ => ⟨S2000x40, .f32⟩
  | .local _ .vmem, ⟨22, _⟩ => ⟨S2000x40, .f32⟩
  | .local _ .vmem, ⟨23, _⟩ => ⟨S2000x40, .f32⟩
  | .local _ .vmem, ⟨24, _⟩ => ⟨S2000x40, .f32⟩
  | .local _ .vmem, ⟨25, _⟩ => ⟨S2000x40, .f32⟩
  | .local _ .vmem, ⟨26, _⟩ => ⟨S2000x40, .f32⟩
  | .local _ .vmem, ⟨27, _⟩ => ⟨S2000x1, .f32⟩
  | .local _ .vmem, ⟨28, _⟩ => ⟨S2000x1, .f32⟩
  | .local _ .vmem, ⟨29, _⟩ => ⟨S1x40, .f32⟩
  | .local _ .vmem, ⟨30, _⟩ => ⟨S2000x40, .f32⟩
  | .local _ .vmem, ⟨31, _⟩ => ⟨S2000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x40 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x40 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S2000x256_S2000x256_0_0 : ∀ a, (![0, 0] : Fin 2 → Nat) a + S2000x256.size a ≤ S2000x256.size a
  h_S2000x256 : 0 < S2000x256.numel
  inb_S256x16_S256x16_0_0 : ∀ a, (![0, 0] : Fin 2 → Nat) a + S256x16.size a ≤ S256x16.size a
  h_S256x16 : 0 < S256x16.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x16 : S2000x1.Broadcasts S2000x16
  inb_S2000x16_S2000x16_0_0 : ∀ a, (![0, 0] : Fin 2 → Nat) a + S2000x16.size a ≤ S2000x16.size a
  h_S2000x16 : 0 < S2000x16.numel
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x40_S16x40_0_0 : ∀ a, (![0, 0] : Fin 2 → Nat) a + S16x40.size a ≤ S16x40.size a
  h_S16x40 : 0 < S16x40.numel
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  bcast_S_S100000x40 : S_.BroadcastsInDim S100000x40 (![] : Fin 0 → Fin S100000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  scatter_S100000_S3200000x1_S3200000_n_0_0_1_wf : ScatterDims.WF S100000 S3200000x1 S3200000 [] [0] [0] 1
  dot_S2000x256_S256x16_S2000x16_1_0_0_1_n_n_wf : DotDims.WF S2000x256 S256x16 S2000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S2000x16_S16x40_S2000x40_1_0_0_1_n_n_wf : DotDims.WF S2000x16 S16x40 S2000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x16.size a ≤ S100000x16.size a
  hwx0_3 : ∀ i : grid0.Coords, EltTy.bits .f32 = 32 ∨ (Rect.block (s := S100000x16) S2000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x16.size a ≤ S100000x16.size a
  hwx1_1 : ∀ i : grid1.Coords, EltTy.bits .f32 = 32 ∨ (Rect.block (s := S100000x16) S2000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x16.size a ≤ S100000x16.size a
  hwx1_4 : ∀ i : grid1.Coords, EltTy.bits .f32 = 32 ∨ (Rect.block (s := S100000x16) S2000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x40.size a ≤ S16x40.size a
  hwx2_1 : ∀ i : grid2.Coords, EltTy.bits .f32 = 32 ∨ (Rect.block (s := S16x40) S16x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x40.size a ≤ S100000x40.size a
  hwx2_3 : ∀ i : grid2.Coords, EltTy.bits .f32 = 32 ∨ (Rect.block (s := S100000x40) S2000x40.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x40.size a ≤ S100000x40.size a
  hwx3_0 : ∀ i : grid3.Coords, EltTy.bits .f32 = 32 ∨ (Rect.block (s := S100000x40) S2000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x40.size a ≤ S100000x40.size a
  hwx3_1 : ∀ i : grid3.Coords, EltTy.bits .f32 = 32 ∨ (Rect.block (s := S100000x40) S2000x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x40.size a ≤ S1x40.size a
  hwx3_3 : ∀ i : grid3.Coords, EltTy.bits .f32 = 32 ∨ (Rect.block (s := S1x40) S1x40.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x40.size a ≤ S100000x40.size a
  hwx3_4 : ∀ i : grid3.Coords, EltTy.bits .f32 = 32 ∨ (Rect.block (s := S100000x40) S2000x40.size (cc3_transform_4 i) (hinb3_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S2000x256_S256x16_S2000x16_1_0_0_1_n_n : DotDims S2000x256 S256x16 S2000x16 where
  lhsContracting := [1]
  rhsContracting := [0]
  lhsNonContracting := [0]
  rhsNonContracting := [1]
  lhsBatch := []
  rhsBatch := []
  wf := dot_S2000x256_S256x16_S2000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S2000x16_S16x40_S2000x40_1_0_0_1_n_n : DotDims S2000x16 S16x40 S2000x40 where
  lhsContracting := [1]
  rhsContracting := [0]
  lhsNonContracting := [0]
  rhsNonContracting := [1]
  lhsBatch := []
  rhsBatch := []
  wf := dot_S2000x16_S16x40_S2000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S2000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v27) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v28) S2000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v38) S2000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S2000x40.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v39) S1x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v40) S2000x40.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x40 : Shape := ⟨2, ![16, 40]⟩
abbrev S40 : Shape := ⟨1, ![40]⟩
abbrev S100000x16 : Shape := ⟨2, ![100000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩

abbrev nBuf : Space → Nat
  | .hbm => 129
  | .vmem => 0
  | .smem => 0
  | _ => 0

abbrev hbmTy0_0 (i : Nat) : BufTy := match i % 128 with
  | 0 => ⟨S100000x256, .f32⟩
  | 1 => ⟨S2x3200000, .i32⟩
  | 2 => ⟨S256x16, .f32⟩
  | 3 => ⟨S16, .f32⟩
  | 4 => ⟨S16x40, .f32⟩
  | 5 => ⟨S40, .f32⟩
  | 6 => ⟨S100000x16, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x40, .f32⟩
  | 70 => ⟨S100000, .i32⟩
  | 71 => ⟨S1x3200000, .i32⟩
  | 72 => ⟨S3200000, .i32⟩
  | 73 => ⟨S3300000, .i32⟩
  | 74 => ⟨S1x3200000, .i32⟩
  | 75 => ⟨S3200000, .i32⟩
  | 76 => ⟨S3300000, .i32⟩
  | 77 => ⟨S_, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x40, .f32⟩
  | 119 => ⟨S3300000x1, .f32⟩
  | 120 => ⟨S3300000x40, .f32⟩
  | 121 => ⟨S3300000x40, .f32⟩
  | 122 => ⟨S_, .f32⟩
  | 123 => ⟨S100000x40, .f32⟩
  | 124 => ⟨S3300000x1, .i32⟩
  | 125 => ⟨S100000x40, .f32⟩
  | 126 => ⟨S1x40, .f32⟩
  | 127 => ⟨S100000x40, .f32⟩
  | _ => ⟨S100000x256, .f32⟩

abbrev hbmTy0_1 (i : Nat) : BufTy := match i % 128 with
  | 0 => ⟨S100000x40, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x256_S256x16_S100000x16_1_0_0_1_n_n_wf : DotDims.WF S100000x256 S256x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.LibPlainProduct.lean ====
/-
  A plain matrix product read at an entry.

  A `tpu.matmul` or a host `dot_general` of an `[M, K]` matrix by a `[K, N]` matrix whose dimension numbers contract
  axis 1 of the left operand with axis 0 of the right one, with no batch axes, is, over the extended reals and into a
  zero accumulator, the textbook product: entry `(p, q)` is `∑ k, l (p, k) · r (k, q)`. The library states the product
  over the record's own contraction index and operand index maps; here those are read once, for every record of this
  kind (`IsPlain`, six equations a printed record proves by `rfl`), at any three extents.
-/
import Idealize.ShloMosaic.PureOps.Ideal.Laws
import Idealize.ShloMosaic.Lib.ValueIdx

noncomputable section

open scoped BigOperators

namespace Cert.Lib.PlainProduct

open Idealize.ShloMosaic Idealize.ShloMosaic.ValueIdx

variable {M K N : Nat}

/-- The dimension numbers of a plain product `[M, K] · [K, N]`: the left operand contracts its axis 1, the right one its
    axis 0, the kept axes are the left operand's 0 and the right operand's 1, and there is no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

/-- One axis is contracted … -/
theorem contr_rank (h : IsPlain D) : D.contr.rank = 1 := by
  rw [D.rank_contr, h.lc]; rfl

/-- … and its extent is `K`. -/
theorem contr_size (h : IsPlain D) (h0 : 0 < D.contr.rank) : D.contr.size ⟨0, h0⟩ = K := by
  rw [D.size_contr 0 (by rw [h.lc]; exact Nat.one_pos)]
  simp only [h.lc, List.getElem_cons_zero]
  rfl

/-- A coordinate of an index does not depend on how its axis number is written. -/
private theorem coord_congr {s : Shape} (j : s.Idx) (a b : Nat) (ha : a < s.rank) (hb : b < s.rank) (e : a = b) :
    (j ⟨a, ha⟩).val = (j ⟨b, hb⟩).val := by subst e; rfl

/-- The left operand is read at the result's row … -/
theorem lhsIdx_row (h : IsPlain D) (j : (⟨2, ![M, N]⟩ : Shape).Idx) (k : D.contr.Idx) :
    (D.lhsIdx j k 0).val = (j 0).val := by
  unfold DotDims.lhsIdx
  rw [dif_neg (show ¬(0 : Fin (⟨2, ![M, K]⟩ : Shape).rank) ∈ D.lhsBatch by rw [h.lb]; exact List.not_mem_nil),
    dif_pos (show (0 : Fin (⟨2, ![M, K]⟩ : Shape).rank) ∈ D.lhsNonContracting by rw [h.ln]; exact List.mem_singleton.mpr rfl)]
  simp only [Fin.val_cast]
  exact coord_congr j _ _ _ _ (by simp [h.lb, h.ln])

/-- … and at the contraction position; -/
theorem lhsIdx_col (h : IsPlain D) (j : (⟨2, ![M, N]⟩ : Shape).Idx) (k : D.contr.Idx) :
    (D.lhsIdx j k 1).val = (k ⟨0, by rw [contr_rank h]; exact Nat.one_pos⟩).val :=
  D.lhsIdx_val_of_single h.lc j k

/-- the right operand at the contraction position … -/
theorem rhsIdx_row (h : IsPlain D) (j : (⟨2, ![M, N]⟩ : Shape).Idx) (k : D.contr.Idx) :
    (D.rhsIdx j k 0).val = (k ⟨0, by rw [contr_rank h]; exact Nat.one_pos⟩).val :=
  D.rhsIdx_val_of_single h.rc j k

/-- … and at the result's column. -/
theorem rhsIdx_col (h : IsPlain D) (j : (⟨2, ![M, N]⟩ : Shape).Idx) (k : D.contr.Idx) :
    (D.rhsIdx j k 1).val = (j 1).val := by
  unfold DotDims.rhsIdx
  rw [dif_neg (show ¬(1 : Fin (⟨2, ![K, N]⟩ : Shape).rank) ∈ D.rhsBatch by rw [h.rb]; exact List.not_mem_nil),
    dif_pos (show (1 : Fin (⟨2, ![K, N]⟩ : Shape).rank) ∈ D.rhsNonContracting by rw [h.rn]; exact List.mem_singleton.mpr rfl)]
  simp only [Fin.val_cast]
  exact coord_congr j _ _ _ _ (by simp [h.lb, h.ln, h.rn])

/-- The sum over the record's contraction index of the operands' products, at entry `(p, q)`, is the sum over
    `k : Fin K` of `l (p, k) · r (k, q)`. -/
theorem sum_contr (h : IsPlain D) (l : (⟨2, ![M, K]⟩ : Shape).Idx → EReal) (r : (⟨2, ![K, N]⟩ : Shape).Idx → EReal)
    (p : Fin M) (q : Fin N) :
    ∑ k : D.contr.Idx, l (D.lhsIdx (ix2 p q) k) * r (D.rhsIdx (ix2 p q) k) = ∑ k : Fin K, l (ix2 p k) * r (ix2 k q) := by
  have hr := contr_rank h
  have hs : D.contr.size ⟨0, by omega⟩ = K := contr_size h _
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_row h _ _
    | ⟨1, _⟩ => exact (lhsIdx_col h _ _).trans hk)
  have er : D.rhsIdx (ix2 p q) ((contrEquiv1 D K hr hs).symm k) = ix2 k q := funext fun a => Fin.ext (by
    match a with
    | ⟨0, _⟩ => exact (rhsIdx_row h _ _).trans hk
    | ⟨1, _⟩ => exact rhsIdx_col h _ _)
  rw [el, er]

/-- A `tpu.matmul` of this kind into the zero splat, at entry `(p, q)`. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q) = ∑ k : Fin K, l (ix2 p k) * r (ix2 k q) := by
  rw [Ideal.matmul_constant_zero_apply]
  exact sum_contr h l r p q

/-- The host's `dot_general` of this kind, at entry `(p, q)`. -/
theorem dotGeneral_apply (h : IsPlain D) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) := by
  rw [Ideal.dotGeneral_apply]
  exact sum_contr h l r p q

end Cert.Lib.PlainProduct

end
-- ==== Proof.KRegion0.lean ====
/-
  The first product region: fifty blocks of 2000 rows. Block `t` of the output is the degree scale of its rows
  times the product of the block's rows of the features with the whole weight table, so after the fifty
  write-backs entry `(p, q)` of the output array is `dinv p · ∑ k, x (p, k) · W (k, q)`.
-/
import proofs.«428375_j76158360092902_4_alg».proof.Proof.Gen.KernelIdeal.Frame
import proofs.«428375_j76158360092902_4_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region0

open Idealize.ShloMosaic Idealize.ShloMosaic.TcCoe Idealize.SL.Sem Idealize.ShloMosaic.ValueIdx
open Cert.KernelIdeal Cert.KernelIdeal.Gen
open Idealize.ShloMosaic.Pipeline (Dat Cfg Window)

-- the buffer contents the region is entered with (any contents: the run instantiates them)
variable (V : (c : Dev nD) → (b : Ref sig .tc) → Buf (Elt Ideal) ((c : Thread nD τ).loc b))

abbrev aX (c : Dev nD) : S100000x256.Idx → EReal := V c main_arg0
abbrev aW (c : Dev nD) : S256x16.Idx → EReal := V c main_arg2
abbrev aD (c : Dev nD) : S100000x1.Idx → EReal := V c main_v14
/-- The output array after the region's last write-back. -/
abbrev out (c : Dev nD) : S100000x16.Idx → EReal := (dat0 (F := Ideal) V c).arrAt 3 cfg0.N

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The block product contracts the left operand's columns with the right operand's rows, with no batch axis. -/
theorem plain0 : Cert.Lib.PlainProduct.IsPlain dot_S2000x256_S256x16_S2000x16_1_0_0_1_n_n := ⟨rfl, rfl, rfl, rfl, rfl, rfl⟩

/-- The body's stored value at entry `(r, q)` of a block: the row's scale times the row of the left block against
    column `q` of the table. -/
theorem pay_apply (x0 : Vec Ideal S2000x256 .f32) (x1 : Vec Ideal S256x16 .f32) (x2 : Vec Ideal S2000x1 .f32)
    (r : Fin 2000) (q : Fin 16) :
    k0_pay1 x0 x1 x2 (ix2 r q) = x2 (ix2 r 0) * ∑ k : Fin 256, x0 (ix2 r k) * x1 (ix2 k q) := by
  unfold k0_pay1
  rw [mulf_apply, shapeCast_self, broadcastTo_a1_ab_apply]
  exact congrArg (x2 (ix2 r 0) * ·) (Cert.Lib.PlainProduct.matmul_zero_apply plain0 (some .fp32) x0 x1 r q)

/-- The zero offset pair. -/
theorem hz : (![0, 0] : Fin 2 → Nat) = fun _ => 0 := funext fun a => by fin_cases a <;> rfl

/-- The windows' block indices at each of the fifty grid points: the row-blocked windows sit at block row `t`,
    column block 0; the weight table's window is the whole table. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0 :=
  (by decide +kernel : ∀ t : Fin grid0.N, _)

/-- The three input blocks at a grid point. -/
abbrev xblk (c : Dev nD) (t : Fin cfg0.N) : Vec Ideal S2000x256 .f32 := iblk0 V c 0 t
abbrev wblk (c : Dev nD) (t : Fin cfg0.N) : Vec Ideal S256x16 .f32 := iblk0 V c 1 t
abbrev dblk (c : Dev nD) (t : Fin cfg0.N) : Vec Ideal S2000x1 .f32 := iblk0 V c 2 t

/-- A row of the array from its block and its row within the block. -/
abbrev row (t : Fin cfg0.N) (r : Fin 2000) : Fin 100000 :=
  ⟨t.val * 2000 + r.val, by have := t.isLt; have := r.isLt; have : cfg0.N = 50 := N_0; omega⟩

/-- Block `t` of the features is rows `2000 t …` of the feature array. -/
theorem xblk_apply (c : Dev nD) (t : Fin cfg0.N) (r : Fin 2000) (k : Fin 256) :
    xblk V c t (ix2 r k) = aX V c (ix2 (row t r) k) := by
  obtain ⟨e0, e1, -⟩ := idx_facts t
  show V c main_arg0 (((cfg0.win 0).blk t).view.emb (ix2 r k)) = V c main_arg0 _
  congr 1
  funext a
  apply Fin.ext
  match a with
  | ⟨0, _⟩ => show win0_0.index t (0 : Fin 2) * 2000 + 1 * r.val = t.val * 2000 + r.val; rw [e0]; omega
  | ⟨1, _⟩ => show win0_0.index t (1 : Fin 2) * 256 + 1 * k.val = k.val; rw [e1]; omega

/-- The weight table's block is the whole table at every point. -/
theorem wblk_apply (c : Dev nD) (t : Fin cfg0.N) (k : Fin 256) (q : Fin 16) :
    wblk V c t (ix2 k q) = aW V c (ix2 k q) := by
  obtain ⟨-, -, e0, e1, -⟩ := idx_facts t
  show V c main_arg2 (((cfg0.win 1).blk t).view.emb (ix2 k q)) = V c main_arg2 _
  congr 1
  funext a
  apply Fin.ext
  match a with
  | ⟨0, _⟩ => show win0_1.index t (0 : Fin 2) * 256 + 1 * k.val = k.val; rw [e0]; omega
  | ⟨1, _⟩ => show win0_1.index t (1 : Fin 2) * 16 + 1 * q.val = q.val; rw [e1]; omega

/-- Block `t` of the scale column is rows `2000 t …` of the column. -/
theorem dblk_apply (c : Dev nD) (t : Fin cfg0.N) (r : Fin 2000) :
    dblk V c t (ix2 r 0) = aD V c (ix2 (row t r) 0) := by
  obtain ⟨-, -, -, -, e0, e1, -⟩ := idx_facts t
  show V c main_v14 (((cfg0.win 2).blk t).view.emb (ix2 r 0)) = V c main_v14 _
  congr 1
  funext a
  apply Fin.ext
  match a with
  | ⟨0, _⟩ => show win0_2.index t (0 : Fin 2) * 2000 + 1 * r.val = t.val * 2000 + r.val; rw [e0]; omega
  | ⟨1, _⟩ => show win0_2.index t (1 : Fin 2) * 1 + 1 * 0 = 0; rw [e1]

/-- The whole output array: entry `(p, q)` is the scale of row `p` times row `p` of the features against column
    `q` of the table. -/
abbrev G (c : Dev nD) : S100000x16.Idx → EReal := fun i =>
  aD V c (ix2 (i 0) 0) * ∑ k : Fin 256, aX V c (ix2 (i 0) k) * aW V c (ix2 k (i 1))

/-- The body's stored value over the blocks of point `t` is block `t` of `G`, entry by entry. -/
theorem pay_blk (c : Dev nD) (t : Fin cfg0.N) (y : S2000x16.Idx) :
    k0_pay1 (xblk V c t) (wblk V c t) (dblk V c t) y = G V c (ix2 (row t (y 0)) (y 1)) := by
  obtain ⟨r, q, rfl⟩ : ∃ (r : Fin 2000) (q : Fin 16), y = ix2 r q := ⟨y 0, y 1, eq_ix2 y⟩
  rw [pay_apply, dblk_apply]
  show aD V c (ix2 (row t r) 0) * _ = aD V c (ix2 (row t r) 0) * ∑ k : Fin 256, aX V c (ix2 (row t r) k) * aW V c (ix2 k q)
  refine congrArg (aD V c (ix2 (row t r) 0) * ·) (Finset.sum_congr rfl fun k _ => ?_)
  rw [xblk_apply, wblk_apply]

/-- What point `t` writes back is block `t` of `G`. -/
theorem flushed_eq (c : Dev nD) (t : Fin cfg0.N) :
    (dat0 (F := Ideal) V c).flushed 3 t = ((cfg0.win 3).blk t).view.read (Elt Ideal) (G V c) := by
  show (cfg0.win 3).cut (grid0.coords t) ((dat0 (F := Ideal) V c).after 3 t) = _
  rw [after0_3]
  unfold out0_3
  rw [View.canon_unit_zero hz]
  simp only [View.ld_unit_zero (S := S2000x256) hz, View.ld_unit_zero (S := S256x16) hz, View.ld_unit_zero (S := S2000x1) hz]
  obtain ⟨-, -, -, -, -, -, e0, e1⟩ := idx_facts t
  funext j
  show k0_pay1 (xblk V c t) (wblk V c t) (dblk V c t) j = G V c (((cfg0.win 3).blk t).view.emb j)
  refine (pay_blk V c t j).trans (congrArg (G V c) (funext fun a => Fin.ext ?_))
  match a with
  | ⟨0, _⟩ => show t.val * 2000 + (j 0).val = win0_3.index t (0 : Fin 2) * 2000 + 1 * (j 0).val; rw [e0]; omega
  | ⟨1, _⟩ => show (j 1).val = win0_3.index t (1 : Fin 2) * 16 + 1 * (j 1).val; rw [e1]; omega

/-- An index of the array is in point `t`'s block iff each coordinate is in the block's range on its axis. -/
theorem mem_blk (t : Fin cfg0.N) (i : S100000x16.Idx) :
    i ∈ ((cfg0.win 3).blk t).view.set ↔ ∀ a : Fin 2, win0_3.index t a * S2000x16.size a ≤ (i a).val ∧ (i a).val < win0_3.index t a * S2000x16.size a + S2000x16.size a := by
  show i ∈ ((View.whole main_v15).slice (win0_3.rect t)).set ↔ _
  rw [View.set_slice_whole, Rect.mem_set_unit]
  exact Iff.rfl

/-- Row `r` of the array lies in the block of point `r / 2000`. -/
theorem cover (i : S100000x16.Idx) :
    ∃ t : Fin cfg0.N, (cfg0.win 3).flush t = true ∧ i ∈ ((cfg0.win 3).blk t).view.set := by
  have hN : cfg0.N = 50 := N_0
  have hi0 : (i 0).val < 100000 := (i 0).isLt
  have hi1 : (i 1).val < 16 := (i 1).isLt
  obtain ⟨t, ht⟩ : ∃ t : Fin cfg0.N, t.val = (i 0).val / 2000 := ⟨⟨(i 0).val / 2000, by omega⟩, rfl⟩
  obtain ⟨-, -, -, -, -, -, e0, e1⟩ := idx_facts t
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; rw [e0]; omega
  | ⟨1, _⟩ => show win0_3.index t (1 : Fin 2) * 16 ≤ (i 1).val ∧ (i 1).val < win0_3.index t (1 : Fin 2) * 16 + 16; rw [e1]; omega

/-- After the fifty write-backs the output array is `G`. -/
theorem out_eq (c : Dev nD) : out V c = G V c :=
  (dat0 (F := Ideal) V c).arrAt_eq_of_cover 3 (G V c) (fun t _ => flushed_eq V c t) cover

/-- Entry `(p, q)` of the region's output: the row's scale times the row of `x` against column `q` of `W`. -/
theorem final (c : Dev nD) (p : Fin 100000) (q : Fin 16) :
    out V c (ix2 p q) = aD V c (ix2 p 0) * ∑ k : Fin 256, aX V c (ix2 p k) * aW V c (ix2 k q) := by
  exact congrFun (out_eq V c) (ix2 p q)

end Cert.KernelIdeal.Region0

end
-- ==== Proof.KRegion1.lean ====
/-
  The first combining region: fifty blocks of 2000 rows. Entry `(p, q)` of the output array is
  `max (dinv p · (s (p, q) + y (p, q)) + b q) 0`: the edge sum and the self loop added, scaled, the bias added, clipped at zero.
-/
import proofs.«428375_j76158360092902_4_alg».proof.Proof.Gen.KernelIdeal.Frame
import proofs.«428375_j76158360092902_4_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region1

open Idealize.ShloMosaic Idealize.ShloMosaic.TcCoe Idealize.SL.Sem Idealize.ShloMosaic.ValueIdx
open Cert.KernelIdeal Cert.KernelIdeal.Gen
open Idealize.ShloMosaic.Pipeline (Dat Cfg Window)

-- the buffer contents the region is entered with (any contents: the run instantiates them)
variable (V : (c : Dev nD) → (b : Ref sig .tc) → Buf (Elt Ideal) ((c : Thread nD τ).loc b))

abbrev aS (c : Dev nD) : S100000x16.Idx → EReal := V c main_v25
abbrev aY (c : Dev nD) : S100000x16.Idx → EReal := V c main_v15
abbrev aD (c : Dev nD) : S100000x1.Idx → EReal := V c main_v14
abbrev aB (c : Dev nD) : S1x16.Idx → EReal := V c main_v26
/-- The output array after the region's last write-back. -/
abbrev out (c : Dev nD) : S100000x16.Idx → EReal := (dat1 (F := Ideal) V c).arrAt 4 cfg1.N

/-! ## The body's value at one entry of a block -/

theorem hz : (![0, 0] : Fin 2 → Nat) = fun _ => 0 := funext fun a => by fin_cases a <;> rfl

/-- A column `[a, 1]` broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's stored value at row `r`, column `q` of a block: the two summands added, scaled by the row's
    factor, the column's bias added, the maximum with zero taken. -/
theorem pay_apply (x2 : Vec Ideal S2000x1 .f32) (x0 x1 : Vec Ideal S2000x16 .f32) (x3 : Vec Ideal S1x16 .f32)
    (r : Fin 2000) (q : Fin 16) :
    k1_pay1 (F := Ideal) x2 x0 x1 x3 (ix2 r q)
      = max (x2 (ix2 r 0) * (x0 (ix2 r q) + x1 (ix2 r q)) + x3 (ix2 0 q)) 0 := by
  unfold k1_pay1
  simp only [shapeCast_self]
  rw [maximumf_apply, addf_apply, mulf_apply, addf_apply, broadcast_apply,
    broadcastTo_a1_ab_apply x2 broadcasts_S2000x1_S2000x16 r q,
    broadcastTo_1b_ab_apply x3 broadcasts_S1x16_S2000x16 r q]
  show max _ (Ideal.ofBits .f32 0x00000000#32) = _
  rw [Ideal.ofBits_zero_f32]

/-- A block of the body's stored values is a block of a function `Gf` of the whole array's indices, read through
    the block's placement `e`, as soon as it is so entry by entry. -/
theorem pay_eq_of_entries (x2 : Vec Ideal S2000x1 .f32) (x0 x1 : Vec Ideal S2000x16 .f32) (x3 : Vec Ideal S1x16 .f32)
    (Gf : S100000x16.Idx → EReal) (e : S2000x16.Idx → S100000x16.Idx)
    (h : ∀ (r : Fin 2000) (q : Fin 16),
      max (x2 (ix2 r 0) * (x0 (ix2 r q) + x1 (ix2 r q)) + x3 (ix2 0 q)) 0 = Gf (e (ix2 r q))) :
    k1_pay1 (F := Ideal) x2 x0 x1 x3 = fun j => Gf (e j) := by
  funext j
  obtain ⟨r, q, rfl⟩ : ∃ (r : Fin 2000) (q : Fin 16), j = ix2 r q := ⟨j 0, j 1, eq_ix2 (n0 := 2000) (n1 := 16) j⟩
  exact (pay_apply x2 x0 x1 x3 r q).trans (h r q)

/-! ## The whole output array -/

/-- The output array as one function of the four input arrays, index by index. -/
def G (c : Dev nD) : S100000x16.Idx → EReal := fun i =>
  max (aD V c (ix2 (i 0 : Fin 100000) (0 : Fin 1)) * (aS V c i + aY V c i) + aB V c (ix2 (0 : Fin 1) (i 1 : Fin 16))) 0

/-- The input blocks at a grid point, under names of literal type. -/
abbrev xS (c : Dev nD) (t : Fin cfg1.N) : Vec Ideal S2000x16 .f32 := iblk1 (F := Ideal) V c 0 t
abbrev xY (c : Dev nD) (t : Fin cfg1.N) : Vec Ideal S2000x16 .f32 := iblk1 (F := Ideal) V c 1 t
abbrev xD (c : Dev nD) (t : Fin cfg1.N) : Vec Ideal S2000x1 .f32 := iblk1 (F := Ideal) V c 2 t
abbrev xB (c : Dev nD) (t : Fin cfg1.N) : Vec Ideal S1x16 .f32 := iblk1 (F := Ideal) V c 3 t
/-- Where the output's block at a grid point lies in the array. -/
abbrev eO (t : Fin cfg1.N) : S2000x16.Idx → S100000x16.Idx := ((cfg1.win 4).blk t).view.emb

/-- The block indices over the fifty grid points: the three row-blocked inputs move with the output along the rows
    and stay at column block zero, the bias row stays put, and the output's row block is the point's number. -/
theorem idx_facts : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The first summand's block entry is the array's entry at the output's place. -/
theorem xS_apply (c : Dev nD) (t : Fin cfg1.N) (r : Fin 2000) (q : Fin 16) :
    xS V c t (ix2 r q) = aS V c (eO t (ix2 r q)) := by
  obtain ⟨e0, e1, -, -, -, -, -, -, -, e9⟩ := idx_facts t
  show V c main_v25 (((cfg1.win 0).blk t).view.emb (ix2 r q)) = V c main_v25 (((cfg1.win 4).blk t).view.emb (ix2 r q))
  refine congrArg (V c main_v25) (funext fun a => Fin.ext ?_)
  match a with
  | ⟨0, _⟩ => show win1_0.index t (0 : Fin 2) * 2000 + 1 * r.val = win1_4.index t (0 : Fin 2) * 2000 + 1 * r.val; omega
  | ⟨1, _⟩ => show win1_0.index t (1 : Fin 2) * 16 + 1 * q.val = win1_4.index t (1 : Fin 2) * 16 + 1 * q.val; omega

/-- The second summand's block entry is the array's entry at the output's place. -/
theorem xY_apply (c : Dev nD) (t : Fin cfg1.N) (r : Fin 2000) (q : Fin 16) :
    xY V c t (ix2 r q) = aY V c (eO t (ix2 r q)) := by
  obtain ⟨-, -, e2, e3, -, -, -, -, -, e9⟩ := idx_facts t
  show V c main_v15 (((cfg1.win 1).blk t).view.emb (ix2 r q)) = V c main_v15 (((cfg1.win 4).blk t).view.emb (ix2 r q))
  refine congrArg (V c main_v15) (funext fun a => Fin.ext ?_)
  match a with
  | ⟨0, _⟩ => show win1_1.index t (0 : Fin 2) * 2000 + 1 * r.val = win1_4.index t (0 : Fin 2) * 2000 + 1 * r.val; omega
  | ⟨1, _⟩ => show win1_1.index t (1 : Fin 2) * 16 + 1 * q.val = win1_4.index t (1 : Fin 2) * 16 + 1 * q.val; omega

/-- The scale column's block entry is the column's entry in the output's row. -/
theorem xD_apply (c : Dev nD) (t : Fin cfg1.N) (r : Fin 2000) (q : Fin 16) :
    xD V c t (ix2 r 0) = aD V c (ix2 (eO t (ix2 r q) 0 : Fin 100000) (0 : Fin 1)) := by
  obtain ⟨-, -, -, -, e4, e5, -, -, -, -⟩ := idx_facts t
  show V c main_v14 (((cfg1.win 2).blk t).view.emb (ix2 r 0)) = V c main_v14 (ix2 (((cfg1.win 4).blk t).view.emb (ix2 r q) 0 : Fin 100000) (0 : Fin 1))
  refine congrArg (V c main_v14) (funext fun a => Fin.ext ?_)
  match a with
  | ⟨0, _⟩ => show win1_2.index t (0 : Fin 2) * 2000 + 1 * r.val = win1_4.index t (0 : Fin 2) * 2000 + 1 * r.val; omega
  | ⟨1, _⟩ => show win1_2.index t (1 : Fin 2) * 1 + 1 * 0 = 0; omega

/-- The bias row's block entry is the row's entry in the output's column. -/
theorem xB_apply (c : Dev nD) (t : Fin cfg1.N) (r : Fin 2000) (q : Fin 16) :
    xB V c t (ix2 0 q) = aB V c (ix2 (0 : Fin 1) (eO t (ix2 r q) 1 : Fin 16)) := by
  obtain ⟨-, -, -, -, -, -, e6, e7, -, e9⟩ := idx_facts t
  show V c main_v26 (((cfg1.win 3).blk t).view.emb (ix2 0 q)) = V c main_v26 (ix2 (0 : Fin 1) (((cfg1.win 4).blk t).view.emb (ix2 r q) 1 : Fin 16))
  refine congrArg (V c main_v26) (funext fun a => Fin.ext ?_)
  match a with
  | ⟨0, _⟩ => show win1_3.index t (0 : Fin 2) * 1 + 1 * 0 = 0; omega
  | ⟨1, _⟩ => show win1_3.index t (1 : Fin 2) * 16 + 1 * q.val = win1_4.index t (1 : Fin 2) * 16 + 1 * q.val; omega

/-- What grid point `t` writes back is block `t` of `G`. -/
theorem flushed_eq (c : Dev nD) (t : Fin cfg1.N) :
    (dat1 (F := Ideal) V c).flushed 4 t = ((cfg1.win 4).blk t).view.read (Elt Ideal) (G V c) := by
  show (cfg1.win 4).cut (grid1.coords t) ((dat1 (F := Ideal) V c).after 4 t) = _
  rw [after1_4]
  unfold out1_4
  rw [View.canon_unit_zero hz]
  simp only [View.ld_unit_zero (S := S2000x16) hz, View.ld_unit_zero (S := S2000x1) hz, View.ld_unit_zero (S := S1x16) hz]
  refine pay_eq_of_entries (xD V c t) (xS V c t) (xY V c t) (xB V c t) (G V c) (eO t) fun r q => ?_
  rw [xS_apply V c t r q, xY_apply V c t r q, xD_apply V c t r q, xB_apply V c t r q]
  rfl

/-- An index of the array is in point `t`'s block iff each coordinate is in the block's range on its axis. -/
theorem mem_blk (t : Fin cfg1.N) (i : S100000x16.Idx) :
    i ∈ ((cfg1.win 4).blk t).view.set ↔ ∀ a : Fin 2, win1_4.index t a * S2000x16.size a ≤ (i a).val ∧ (i a).val < win1_4.index t a * S2000x16.size a + S2000x16.size a := by
  show i ∈ ((View.whole main_v27).slice (win1_4.rect t)).set ↔ _
  rw [View.set_slice_whole, Rect.mem_set_unit]
  exact Iff.rfl

/-- Row `r` of the array is in the block of grid point `r / 2000`. -/
theorem cover (i : S100000x16.Idx) :
    ∃ t : Fin cfg1.N, (cfg1.win 4).flush t = true ∧ i ∈ ((cfg1.win 4).blk t).view.set := by
  have hi0 : (i 0).val < 100000 := (i 0).isLt
  have hi1 : (i 1).val < 16 := (i 1).isLt
  obtain ⟨t, ht⟩ : ∃ t : Fin cfg1.N, t.val = (i 0).val / 2000 :=
    ⟨⟨(i 0).val / 2000, Nat.lt_of_lt_of_eq (by omega) N_1.symm⟩, rfl⟩
  obtain ⟨-, -, -, -, -, -, -, -, e8, e9⟩ := idx_facts t
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 16 ≤ (i 1).val ∧ (i 1).val < win1_4.index t (1 : Fin 2) * 16 + 16; omega

/-- The output array after the last write-back is `G`. -/
theorem out_eq (c : Dev nD) : out V c = G V c :=
  (dat1 (F := Ideal) V c).arrAt_eq_of_cover 4 (G V c) (fun t _ => flushed_eq V c t) cover

/-- Entry `(p, q)` of the region's output. -/
theorem final (c : Dev nD) (p : Fin 100000) (q : Fin 16) :
    out V c (ix2 p q) = max (aD V c (ix2 p 0) * (aS V c (ix2 p q) + aY V c (ix2 p q)) + aB V c (ix2 0 q)) 0 := by
  rw [out_eq V c]
  rfl

end Cert.KernelIdeal.Region1

end
-- ==== Proof.KRegion2.lean ====
/-
  The second product region: fifty blocks of 2000 rows. After the fifty write-backs entry `(p, q)` of the output
  array is `dinv p · ∑ k, h (p, k) · W (k, q)` over the sixteen hidden features.
-/
import proofs.«428375_j76158360092902_4_alg».proof.Proof.Gen.KernelIdeal.Frame
import proofs.«428375_j76158360092902_4_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region2

open Idealize.ShloMosaic Idealize.ShloMosaic.TcCoe Idealize.SL.Sem Idealize.ShloMosaic.ValueIdx
open Cert.KernelIdeal Cert.KernelIdeal.Gen
open Idealize.ShloMosaic.Pipeline (Dat Cfg Window)

-- the buffer contents the region is entered with (any contents: the run instantiates them)
variable (V : (c : Dev nD) → (b : Ref sig .tc) → Buf (Elt Ideal) ((c : Thread nD τ).loc b))

abbrev aH (c : Dev nD) : S100000x16.Idx → EReal := V c main_v27
abbrev aW (c : Dev nD) : S16x40.Idx → EReal := V c main_arg4
abbrev aD (c : Dev nD) : S100000x1.Idx → EReal := V c main_v14
/-- The output array after the region's last write-back. -/
abbrev out (c : Dev nD) : S100000x40.Idx → EReal := (dat2 (F := Ideal) V c).arrAt 3 cfg2.N

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The block product contracts the left operand's columns with the right operand's rows, with no batch axis. -/
theorem plain2 : Cert.Lib.PlainProduct.IsPlain dot_S2000x16_S16x40_S2000x40_1_0_0_1_n_n := ⟨rfl, rfl, rfl, rfl, rfl, rfl⟩

/-- The body's stored value at entry `(r, q)` of a block: the row's scale times the row of the left block against
    column `q` of the table. -/
theorem pay_apply (x0 : Vec Ideal S2000x16 .f32) (x1 : Vec Ideal S16x40 .f32) (x2 : Vec Ideal S2000x1 .f32)
    (r : Fin 2000) (q : Fin 40) :
    k2_pay1 x0 x1 x2 (ix2 r q) = x2 (ix2 r 0) * ∑ k : Fin 16, x0 (ix2 r k) * x1 (ix2 k q) := by
  unfold k2_pay1
  rw [mulf_apply, shapeCast_self, shapeCast_self, broadcastTo_a1_ab_apply]
  exact congrArg (x2 (ix2 r 0) * ·) (Cert.Lib.PlainProduct.matmul_zero_apply plain2 (some .fp32) x0 x1 r q)

/-- The zero offset pair. -/
theorem hz : (![0, 0] : Fin 2 → Nat) = fun _ => 0 := funext fun a => by fin_cases a <;> rfl

/-- The windows' block indices at each of the fifty grid points: the row-blocked windows sit at block row `t`,
    column block 0; the weight table's window is the whole table. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0
    ∧ win2_3.index t (0 : Fin 2) = t.val
    ∧ win2_3.index t (1 : Fin 2) = 0 :=
  (by decide +kernel : ∀ t : Fin grid2.N, _)

/-- The three input blocks at a grid point. -/
abbrev hblk (c : Dev nD) (t : Fin cfg2.N) : Vec Ideal S2000x16 .f32 := iblk2 V c 0 t
abbrev wblk (c : Dev nD) (t : Fin cfg2.N) : Vec Ideal S16x40 .f32 := iblk2 V c 1 t
abbrev dblk (c : Dev nD) (t : Fin cfg2.N) : Vec Ideal S2000x1 .f32 := iblk2 V c 2 t

/-- A row of the array from its block and its row within the block. -/
abbrev row (t : Fin cfg2.N) (r : Fin 2000) : Fin 100000 :=
  ⟨t.val * 2000 + r.val, by have := t.isLt; have := r.isLt; have : cfg2.N = 50 := N_2; omega⟩

/-- Block `t` of the hidden features is rows `2000 t …` of their array. -/
theorem hblk_apply (c : Dev nD) (t : Fin cfg2.N) (r : Fin 2000) (k : Fin 16) :
    hblk V c t (ix2 r k) = aH V c (ix2 (row t r) k) := by
  obtain ⟨e0, e1, -⟩ := idx_facts t
  show V c main_v27 (((cfg2.win 0).blk t).view.emb (ix2 r k)) = V c main_v27 _
  congr 1
  funext a
  apply Fin.ext
  match a with
  | ⟨0, _⟩ => show win2_0.index t (0 : Fin 2) * 2000 + 1 * r.val = t.val * 2000 + r.val; rw [e0]; omega
  | ⟨1, _⟩ => show win2_0.index t (1 : Fin 2) * 16 + 1 * k.val = k.val; rw [e1]; omega

/-- The weight table's block is the whole table at every point. -/
theorem wblk_apply (c : Dev nD) (t : Fin cfg2.N) (k : Fin 16) (q : Fin 40) :
    wblk V c t (ix2 k q) = aW V c (ix2 k q) := by
  obtain ⟨-, -, e0, e1, -⟩ := idx_facts t
  show V c main_arg4 (((cfg2.win 1).blk t).view.emb (ix2 k q)) = V c main_arg4 _
  congr 1
  funext a
  apply Fin.ext
  match a with
  | ⟨0, _⟩ => show win2_1.index t (0 : Fin 2) * 16 + 1 * k.val = k.val; rw [e0]; omega
  | ⟨1, _⟩ => show win2_1.index t (1 : Fin 2) * 40 + 1 * q.val = q.val; rw [e1]; omega

/-- Block `t` of the scale column is rows `2000 t …` of the column. -/
theorem dblk_apply (c : Dev nD) (t : Fin cfg2.N) (r : Fin 2000) :
    dblk V c t (ix2 r 0) = aD V c (ix2 (row t r) 0) := by
  obtain ⟨-, -, -, -, e0, e1, -⟩ := idx_facts t
  show V c main_v14 (((cfg2.win 2).blk t).view.emb (ix2 r 0)) = V c main_v14 _
  congr 1
  funext a
  apply Fin.ext
  match a with
  | ⟨0, _⟩ => show win2_2.index t (0 : Fin 2) * 2000 + 1 * r.val = t.val * 2000 + r.val; rw [e0]; omega
  | ⟨1, _⟩ => show win2_2.index t (1 : Fin 2) * 1 + 1 * 0 = 0; rw [e1]

/-- The whole output array: entry `(p, q)` is the scale of row `p` times row `p` of the hidden features against
    column `q` of the table. -/
abbrev G (c : Dev nD) : S100000x40.Idx → EReal := fun i =>
  aD V c (ix2 (i 0) 0) * ∑ k : Fin 16, aH V c (ix2 (i 0) k) * aW V c (ix2 k (i 1))

/-- The body's stored value over the blocks of point `t` is block `t` of `G`, entry by entry. -/
theorem pay_blk (c : Dev nD) (t : Fin cfg2.N) (y : S2000x40.Idx) :
    k2_pay1 (hblk V c t) (wblk V c t) (dblk V c t) y = G V c (ix2 (row t (y 0)) (y 1)) := by
  obtain ⟨r, q, rfl⟩ : ∃ (r : Fin 2000) (q : Fin 40), y = ix2 r q := ⟨y 0, y 1, eq_ix2 y⟩
  rw [pay_apply, dblk_apply]
  show aD V c (ix2 (row t r) 0) * _ = aD V c (ix2 (row t r) 0) * ∑ k : Fin 16, aH V c (ix2 (row t r) k) * aW V c (ix2 k q)
  refine congrArg (aD V c (ix2 (row t r) 0) * ·) (Finset.sum_congr rfl fun k _ => ?_)
  rw [hblk_apply, wblk_apply]

/-- What point `t` writes back is block `t` of `G`. -/
theorem flushed_eq (c : Dev nD) (t : Fin cfg2.N) :
    (dat2 (F := Ideal) V c).flushed 3 t = ((cfg2.win 3).blk t).view.read (Elt Ideal) (G V c) := by
  show (cfg2.win 3).cut (grid2.coords t) ((dat2 (F := Ideal) V c).after 3 t) = _
  rw [after2_3]
  unfold out2_3
  rw [View.canon_unit_zero hz]
  simp only [View.ld_unit_zero (S := S2000x16) hz, View.ld_unit_zero (S := S16x40) hz, View.ld_unit_zero (S := S2000x1) hz]
  obtain ⟨-, -, -, -, -, -, e0, e1⟩ := idx_facts t
  funext j
  show k2_pay1 (hblk V c t) (wblk V c t) (dblk V c t) j = G V c (((cfg2.win 3).blk t).view.emb j)
  refine (pay_blk V c t j).trans (congrArg (G V c) (funext fun a => Fin.ext ?_))
  match a with
  | ⟨0, _⟩ => show t.val * 2000 + (j 0).val = win2_3.index t (0 : Fin 2) * 2000 + 1 * (j 0).val; rw [e0]; omega
  | ⟨1, _⟩ => show (j 1).val = win2_3.index t (1 : Fin 2) * 40 + 1 * (j 1).val; rw [e1]; omega

/-- An index of the array is in point `t`'s block iff each coordinate is in the block's range on its axis. -/
theorem mem_blk (t : Fin cfg2.N) (i : S100000x40.Idx) :
    i ∈ ((cfg2.win 3).blk t).view.set ↔ ∀ a : Fin 2, win2_3.index t a * S2000x40.size a ≤ (i a).val ∧ (i a).val < win2_3.index t a * S2000x40.size a + S2000x40.size a := by
  show i ∈ ((View.whole main_v28).slice (win2_3.rect t)).set ↔ _
  rw [View.set_slice_whole, Rect.mem_set_unit]
  exact Iff.rfl

/-- Row `r` of the array lies in the block of point `r / 2000`. -/
theorem cover (i : S100000x40.Idx) :
    ∃ t : Fin cfg2.N, (cfg2.win 3).flush t = true ∧ i ∈ ((cfg2.win 3).blk t).view.set := by
  have hN : cfg2.N = 50 := N_2
  have hi0 : (i 0).val < 100000 := (i 0).isLt
  have hi1 : (i 1).val < 40 := (i 1).isLt
  obtain ⟨t, ht⟩ : ∃ t : Fin cfg2.N, t.val = (i 0).val / 2000 := ⟨⟨(i 0).val / 2000, by omega⟩, rfl⟩
  obtain ⟨-, -, -, -, -, -, e0, e1⟩ := idx_facts t
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; rw [e0]; omega
  | ⟨1, _⟩ => show win2_3.index t (1 : Fin 2) * 40 ≤ (i 1).val ∧ (i 1).val < win2_3.index t (1 : Fin 2) * 40 + 40; rw [e1]; omega

/-- After the fifty write-backs the output array is `G`. -/
theorem out_eq (c : Dev nD) : out V c = G V c :=
  (dat2 (F := Ideal) V c).arrAt_eq_of_cover 3 (G V c) (fun t _ => flushed_eq V c t) cover

/-- Entry `(p, q)` of the region's output: the row's scale times the row of `h` against column `q` of `W`. -/
theorem final (c : Dev nD) (p : Fin 100000) (q : Fin 40) :
    out V c (ix2 p q) = aD V c (ix2 p 0) * ∑ k : Fin 16, aH V c (ix2 p k) * aW V c (ix2 k q) := by
  exact congrFun (out_eq V c) (ix2 p q)

end Cert.KernelIdeal.Region2

end
-- ==== Proof.KRegion3.lean ====
/-
  The second combining region: fifty blocks of 2000 rows. Entry `(p, q)` of the output array is
  `dinv p · (s (p, q) + y (p, q)) + b q`: the edge sum and the self loop added, scaled, the bias added.
-/
import proofs.«428375_j76158360092902_4_alg».proof.Proof.Gen.KernelIdeal.Frame
import proofs.«428375_j76158360092902_4_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region3

open Idealize.ShloMosaic Idealize.ShloMosaic.TcCoe Idealize.SL.Sem Idealize.ShloMosaic.ValueIdx
open Cert.KernelIdeal Cert.KernelIdeal.Gen
open Idealize.ShloMosaic.Pipeline (Dat Cfg Window)

-- the buffer contents the region is entered with (any contents: the run instantiates them)
variable (V : (c : Dev nD) → (b : Ref sig .tc) → Buf (Elt Ideal) ((c : Thread nD τ).loc b))

abbrev aS (c : Dev nD) : S100000x40.Idx → EReal := V c main_v38
abbrev aY (c : Dev nD) : S100000x40.Idx → EReal := V c main_v28
abbrev aD (c : Dev nD) : S100000x1.Idx → EReal := V c main_v14
abbrev aB (c : Dev nD) : S1x40.Idx → EReal := V c main_v39
/-- The output array after the region's last write-back. -/
abbrev out (c : Dev nD) : S100000x40.Idx → EReal := (dat3 (F := Ideal) V c).arrAt 4 cfg3.N

/-! ## The body's value at one entry of a block -/

theorem hz : (![0, 0] : Fin 2 → Nat) = fun _ => 0 := funext fun a => by fin_cases a <;> rfl

/-- A column `[a, 1]` broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's stored value at row `r`, column `q` of a block: the two summands added, scaled by the row's
    factor, the column's bias added. -/
theorem pay_apply (x2 : Vec Ideal S2000x1 .f32) (x0 x1 : Vec Ideal S2000x40 .f32) (x3 : Vec Ideal S1x40 .f32)
    (r : Fin 2000) (q : Fin 40) :
    k3_pay1 (F := Ideal) x2 x0 x1 x3 (ix2 r q)
      = x2 (ix2 r 0) * (x0 (ix2 r q) + x1 (ix2 r q)) + x3 (ix2 0 q) := by
  unfold k3_pay1
  simp only [shapeCast_self]
  rw [addf_apply, mulf_apply, addf_apply,
    broadcastTo_a1_ab_apply x2 broadcasts_S2000x1_S2000x40 r q,
    broadcastTo_1b_ab_apply x3 broadcasts_S1x40_S2000x40 r q]

/-- A block of the body's stored values is a block of a function `Gf` of the whole array's indices, read through
    the block's placement `e`, as soon as it is so entry by entry. -/
theorem pay_eq_of_entries (x2 : Vec Ideal S2000x1 .f32) (x0 x1 : Vec Ideal S2000x40 .f32) (x3 : Vec Ideal S1x40 .f32)
    (Gf : S100000x40.Idx → EReal) (e : S2000x40.Idx → S100000x40.Idx)
    (h : ∀ (r : Fin 2000) (q : Fin 40),
      x2 (ix2 r 0) * (x0 (ix2 r q) + x1 (ix2 r q)) + x3 (ix2 0 q) = Gf (e (ix2 r q))) :
    k3_pay1 (F := Ideal) x2 x0 x1 x3 = fun j => Gf (e j) := by
  funext j
  obtain ⟨r, q, rfl⟩ : ∃ (r : Fin 2000) (q : Fin 40), j = ix2 r q := ⟨j 0, j 1, eq_ix2 (n0 := 2000) (n1 := 40) j⟩
  exact (pay_apply x2 x0 x1 x3 r q).trans (h r q)

/-! ## The whole output array -/

/-- The output array as one function of the four input arrays, index by index. -/
def G (c : Dev nD) : S100000x40.Idx → EReal := fun i =>
  aD V c (ix2 (i 0 : Fin 100000) (0 : Fin 1)) * (aS V c i + aY V c i) + aB V c (ix2 (0 : Fin 1) (i 1 : Fin 40))

/-- The input blocks at a grid point, under names of literal type. -/
abbrev xS (c : Dev nD) (t : Fin cfg3.N) : Vec Ideal S2000x40 .f32 := iblk3 (F := Ideal) V c 0 t
abbrev xY (c : Dev nD) (t : Fin cfg3.N) : Vec Ideal S2000x40 .f32 := iblk3 (F := Ideal) V c 1 t
abbrev xD (c : Dev nD) (t : Fin cfg3.N) : Vec Ideal S2000x1 .f32 := iblk3 (F := Ideal) V c 2 t
abbrev xB (c : Dev nD) (t : Fin cfg3.N) : Vec Ideal S1x40 .f32 := iblk3 (F := Ideal) V c 3 t
/-- Where the output's block at a grid point lies in the array. -/
abbrev eO (t : Fin cfg3.N) : S2000x40.Idx → S100000x40.Idx := ((cfg3.win 4).blk t).view.emb

/-- The block indices over the fifty grid points: the three row-blocked inputs move with the output along the rows
    and stay at column block zero, the bias row stays put, and the output's row block is the point's number. -/
theorem idx_facts : ∀ t : Fin cfg3.N,
    win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The first summand's block entry is the array's entry at the output's place. -/
theorem xS_apply (c : Dev nD) (t : Fin cfg3.N) (r : Fin 2000) (q : Fin 40) :
    xS V c t (ix2 r q) = aS V c (eO t (ix2 r q)) := by
  obtain ⟨e0, e1, -, -, -, -, -, -, -, e9⟩ := idx_facts t
  show V c main_v38 (((cfg3.win 0).blk t).view.emb (ix2 r q)) = V c main_v38 (((cfg3.win 4).blk t).view.emb (ix2 r q))
  refine congrArg (V c main_v38) (funext fun a => Fin.ext ?_)
  match a with
  | ⟨0, _⟩ => show win3_0.index t (0 : Fin 2) * 2000 + 1 * r.val = win3_4.index t (0 : Fin 2) * 2000 + 1 * r.val; omega
  | ⟨1, _⟩ => show win3_0.index t (1 : Fin 2) * 40 + 1 * q.val = win3_4.index t (1 : Fin 2) * 40 + 1 * q.val; omega

/-- The second summand's block entry is the array's entry at the output's place. -/
theorem xY_apply (c : Dev nD) (t : Fin cfg3.N) (r : Fin 2000) (q : Fin 40) :
    xY V c t (ix2 r q) = aY V c (eO t (ix2 r q)) := by
  obtain ⟨-, -, e2, e3, -, -, -, -, -, e9⟩ := idx_facts t
  show V c main_v28 (((cfg3.win 1).blk t).view.emb (ix2 r q)) = V c main_v28 (((cfg3.win 4).blk t).view.emb (ix2 r q))
  refine congrArg (V c main_v28) (funext fun a => Fin.ext ?_)
  match a with
  | ⟨0, _⟩ => show win3_1.index t (0 : Fin 2) * 2000 + 1 * r.val = win3_4.index t (0 : Fin 2) * 2000 + 1 * r.val; omega
  | ⟨1, _⟩ => show win3_1.index t (1 : Fin 2) * 40 + 1 * q.val = win3_4.index t (1 : Fin 2) * 40 + 1 * q.val; omega

/-- The scale column's block entry is the column's entry in the output's row. -/
theorem xD_apply (c : Dev nD) (t : Fin cfg3.N) (r : Fin 2000) (q : Fin 40) :
    xD V c t (ix2 r 0) = aD V c (ix2 (eO t (ix2 r q) 0 : Fin 100000) (0 : Fin 1)) := by
  obtain ⟨-, -, -, -, e4, e5, -, -, -, -⟩ := idx_facts t
  show V c main_v14 (((cfg3.win 2).blk t).view.emb (ix2 r 0)) = V c main_v14 (ix2 (((cfg3.win 4).blk t).view.emb (ix2 r q) 0 : Fin 100000) (0 : Fin 1))
  refine congrArg (V c main_v14) (funext fun a => Fin.ext ?_)
  match a with
  | ⟨0, _⟩ => show win3_2.index t (0 : Fin 2) * 2000 + 1 * r.val = win3_4.index t (0 : Fin 2) * 2000 + 1 * r.val; omega
  | ⟨1, _⟩ => show win3_2.index t (1 : Fin 2) * 1 + 1 * 0 = 0; omega

/-- The bias row's block entry is the row's entry in the output's column. -/
theorem xB_apply (c : Dev nD) (t : Fin cfg3.N) (r : Fin 2000) (q : Fin 40) :
    xB V c t (ix2 0 q) = aB V c (ix2 (0 : Fin 1) (eO t (ix2 r q) 1 : Fin 40)) := by
  obtain ⟨-, -, -, -, -, -, e6, e7, -, e9⟩ := idx_facts t
  show V c main_v39 (((cfg3.win 3).blk t).view.emb (ix2 0 q)) = V c main_v39 (ix2 (0 : Fin 1) (((cfg3.win 4).blk t).view.emb (ix2 r q) 1 : Fin 40))
  refine congrArg (V c main_v39) (funext fun a => Fin.ext ?_)
  match a with
  | ⟨0, _⟩ => show win3_3.index t (0 : Fin 2) * 1 + 1 * 0 = 0; omega
  | ⟨1, _⟩ => show win3_3.index t (1 : Fin 2) * 40 + 1 * q.val = win3_4.index t (1 : Fin 2) * 40 + 1 * q.val; omega

/-- What grid point `t` writes back is block `t` of `G`. -/
theorem flushed_eq (c : Dev nD) (t : Fin cfg3.N) :
    (dat3 (F := Ideal) V c).flushed 4 t = ((cfg3.win 4).blk t).view.read (Elt Ideal) (G V c) := by
  show (cfg3.win 4).cut (grid3.coords t) ((dat3 (F := Ideal) V c).after 4 t) = _
  rw [after3_4]
  unfold out3_4
  rw [View.canon_unit_zero hz]
  simp only [View.ld_unit_zero (S := S2000x40) hz, View.ld_unit_zero (S := S2000x1) hz, View.ld_unit_zero (S := S1x40) hz]
  refine pay_eq_of_entries (xD V c t) (xS V c t) (xY V c t) (xB V c t) (G V c) (eO t) fun r q => ?_
  rw [xS_apply V c t r q, xY_apply V c t r q, xD_apply V c t r q, xB_apply V c t r q]
  rfl

/-- An index of the array is in point `t`'s block iff each coordinate is in the block's range on its axis. -/
theorem mem_blk (t : Fin cfg3.N) (i : S100000x40.Idx) :
    i ∈ ((cfg3.win 4).blk t).view.set ↔ ∀ a : Fin 2, win3_4.index t a * S2000x40.size a ≤ (i a).val ∧ (i a).val < win3_4.index t a * S2000x40.size a + S2000x40.size a := by
  show i ∈ ((View.whole main_v40).slice (win3_4.rect t)).set ↔ _
  rw [View.set_slice_whole, Rect.mem_set_unit]
  exact Iff.rfl

/-- Row `r` of the array is in the block of grid point `r / 2000`. -/
theorem cover (i : S100000x40.Idx) :
    ∃ t : Fin cfg3.N, (cfg3.win 4).flush t = true ∧ i ∈ ((cfg3.win 4).blk t).view.set := by
  have hi0 : (i 0).val < 100000 := (i 0).isLt
  have hi1 : (i 1).val < 40 := (i 1).isLt
  obtain ⟨t, ht⟩ : ∃ t : Fin cfg3.N, t.val = (i 0).val / 2000 :=
    ⟨⟨(i 0).val / 2000, Nat.lt_of_lt_of_eq (by omega) N_3.symm⟩, rfl⟩
  obtain ⟨-, -, -, -, -, -, -, -, e8, e9⟩ := idx_facts t
  refine ⟨t, flush3_4 t, ?_⟩
  rw [mem_blk]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 40 ≤ (i 1).val ∧ (i 1).val < win3_4.index t (1 : Fin 2) * 40 + 40; omega

/-- The output array after the last write-back is `G`. -/
theorem out_eq (c : Dev nD) : out V c = G V c :=
  (dat3 (F := Ideal) V c).arrAt_eq_of_cover 4 (G V c) (fun t _ => flushed_eq V c t) cover

/-- Entry `(p, q)` of the region's output. -/
theorem final (c : Dev nD) (p : Fin 100000) (q : Fin 40) :
    out V c (ix2 p q) = aD V c (ix2 p 0) * (aS V c (ix2 p q) + aY V c (ix2 p q)) + aB V c (ix2 0 q) := by
  rw [out_eq V c]
  rfl

end Cert.KernelIdeal.Region3

end
-- ==== Proof.Spec.lean ====
/-
  Two arrangements of a two-layer graph convolution, and why they agree.

  A graph on `N` nodes is given by `E` edges; edge `e` carries a source word and a destination word. The
  destination word is read as a signed integer: the edge lands on node `p` exactly when that integer is `p`
  (an edge whose destination is no node lands nowhere). The source word names a table row: a negative word is
  first shifted up by `N`, and the result is clamped into `[0, N - 1]`.

  With `deg p` the number of edges landing on `p` plus one (the self loop) and `dinv p = deg p ^ (-1/2)`, one layer
  sends a feature table `z` to
      out p q = ∑_{e lands on p} z (src e) q · (dinv (src e) · dinv p)  +  z p q · (dinv p · dinv p)  +  b q .
  The first arrangement scales the table once, `y = dinv · z`, sums `y` over the incoming edges, adds the self loop
  `y p`, and scales by `dinv p` at the end; the second forms the edge weight `dinv (src e) · dinv (dst e)` per edge and
  sums the weighted rows, the self loops being `N` extra edges `p → p`. The two agree by distributivity, which on
  the extended reals needs every factor to be a real number: the inputs are finite, and `deg p ≥ 1` makes
  `dinv p` a positive real.
-/
import Idealize.ShloMosaic.PureOps.Ideal.Laws
import Idealize.ShloMosaic.Lib.ValueIdx

noncomputable section

open scoped BigOperators

namespace Cert.GCN

open Idealize.ShloMosaic

variable {N E : ℕ}

/-! ## Index words -/

/-- A gather index as the programs normalise it: a negative word is shifted up by `N`. -/
def normWord (N : ℕ) (w : BitVec 32) : BitVec 32 :=
  Scalar.select (IntOp.cmpi .slt w 0#32) (IntOp.addi w (BitVec.ofNat 32 N)) w

/-- The table row a gather reads for the index word `w`: the normalised word, read signed and clamped into the table. -/
def rowOf (N : ℕ) (hN : 0 < N) (w : BitVec 32) : Fin N :=
  ⟨min (normWord N w).toInt.toNat (N - 1), by omega⟩

/-- The edges that land on node `p`: those whose destination word, read as a signed integer, is `p`. -/
def inEdges (dst : Fin E → BitVec 32) (p : Fin N) : Finset (Fin E) :=
  Finset.univ.filter fun e => (dst e).toInt = (p.val : ℤ)

/-! ## Degrees -/

/-- The degree of `p` with its self loop, counted as "edges, then one more". -/
def degK (dst : Fin E → BitVec 32) (p : Fin N) : EReal := (0 + ∑ _e ∈ inEdges dst p, (1 : EReal)) + 1

/-- The same degree, the self loop counted as one more edge of the list. -/
def degR (dst : Fin E → BitVec 32) (p : Fin N) : EReal := 0 + (∑ _e ∈ inEdges dst p, (1 : EReal) + 1)

/-- The inverse square root of a degree, guarded as the programs guard it (zero where the degree is not positive). -/
def dinvOf (deg : EReal) : EReal :=
  Scalar.select (FloatOps.cmpf (F := Ideal) (φ := .f32) .ogt deg 0) (Ideal.rsqrt deg) 0

/-! ## One layer -/

variable {Fd : ℕ}

/-- One layer, scaled table first: `dinv p · (∑_{e → p} dinv (src e) · z (src e) q + dinv p · z p q) + b q`. -/
def layerK (dinv : Fin N → EReal) (dst : Fin E → BitVec 32) (srow : Fin E → Fin N) (z : Fin N → Fin Fd → EReal)
    (b : Fin Fd → EReal) (p : Fin N) (q : Fin Fd) : EReal :=
  dinv p * ((0 + ∑ e ∈ inEdges dst p, dinv (srow e) * z (srow e) q) + dinv p * z p q) + b q

/-- One layer, edge weights first: `∑_{e → p} z (src e) q · (dinv (src e) · dinv (dst e)) + z p q · (dinv p · dinv p) + b q`. -/
def layerR (dinv : Fin N → EReal) (dst : Fin E → BitVec 32) (srow drow : Fin E → Fin N) (z : Fin N → Fin Fd → EReal)
    (b : Fin Fd → EReal) (p : Fin N) (q : Fin Fd) : EReal :=
  (0 + (∑ e ∈ inEdges dst p, z (srow e) q * (dinv (srow e) * dinv (drow e)) + z p q * (dinv p * dinv p))) + b q

/-! ## Two layers -/

variable {K0 H C : ℕ}

/-- The network, scaled tables first. -/
def outK (x : Fin N → Fin K0 → EReal) (dst : Fin E → BitVec 32) (srow : Fin E → Fin N)
    (W1 : Fin K0 → Fin H → EReal) (b1 : Fin H → EReal) (W2 : Fin H → Fin C → EReal) (b2 : Fin C → EReal) :
    Fin N → Fin C → EReal :=
  layerK (fun p => dinvOf (degK dst p)) dst srow
    (fun p q => ∑ k, max (layerK (fun p => dinvOf (degK dst p)) dst srow (fun p q => ∑ k, x p k * W1 k q) b1 p k) 0 * W2 k q) b2

/-- The network, edge weights first. -/
def outR (x : Fin N → Fin K0 → EReal) (dst : Fin E → BitVec 32) (srow drow : Fin E → Fin N)
    (W1 : Fin K0 → Fin H → EReal) (b1 : Fin H → EReal) (W2 : Fin H → Fin C → EReal) (b2 : Fin C → EReal) :
    Fin N → Fin C → EReal :=
  layerR (fun p => dinvOf (degR dst p)) dst srow drow
    (fun p q => ∑ k, max (layerR (fun p => dinvOf (degR dst p)) dst srow drow (fun p q => ∑ k, x p k * W1 k q) b1 p k) 0 * W2 k q) b2

/-! ## Arrays as tables -/

open Idealize.ShloMosaic.ValueIdx in
/-- A rank-2 array as a table of rows. -/
def tab2 {α : Type} {A B : ℕ} (a : (⟨2, ![A, B]⟩ : Shape).Idx → α) : Fin A → Fin B → α := fun p k => a (ix2 p k)

open Idealize.ShloMosaic.ValueIdx in
/-- A rank-1 array as a list. -/
def vec1 {α : Type} {A : ℕ} (a : (⟨1, ![A]⟩ : Shape).Idx → α) : Fin A → α := fun q => a (ix1 q)

open Idealize.ShloMosaic.ValueIdx in
/-- The destination words of an edge list stored as a `[2, E]` array: its row 1. -/
def dstWords {E : ℕ} (a : (⟨2, ![2, E]⟩ : Shape).Idx → BitVec 32) : Fin E → BitVec 32 := fun e => a (ix2 1 e)

open Idealize.ShloMosaic.ValueIdx in
/-- The table row each edge's source word names: row 0 of the edge list, normalised and clamped. -/
def srcRows (N : ℕ) (hN : 0 < N) {E : ℕ} (a : (⟨2, ![2, E]⟩ : Shape).Idx → BitVec 32) : Fin E → Fin N :=
  fun e => rowOf N hN (a (ix2 0 e))

open Idealize.ShloMosaic.ValueIdx in
/-- The table row each edge's destination word names when it is used as a gather index: row 1, normalised and clamped. -/
def dstRows (N : ℕ) (hN : 0 < N) {E : ℕ} (a : (⟨2, ![2, E]⟩ : Shape).Idx → BitVec 32) : Fin E → Fin N :=
  fun e => rowOf N hN (a (ix2 1 e))

end Cert.GCN

end
-- ==== Proof.LibRowOps.lean ====
/-
  Row gathers and row scatter-adds read at an entry.

  `table[idx]` over a table of `N` rows (each a scalar, or a row of `F` entries) at a column of `n` index words prints
  as a `stablehlo.gather` whose start indices are the `[n, 1]` column, the table's axis 0 collapsed and start-indexed:
  result row `e` is the table's row at word `e` read as a signed integer and clamped into `[0, N - 1]`.
  `segment_sum(upd, idx)` prints as a `stablehlo.scatter` with an `add` body over the same kind of column: over the
  extended reals entry `p` of the result is the operand's entry plus the sum of the updates `e` whose word, read as a
  signed integer and NOT clamped, is exactly `p`; an update whose word names no row is dropped.
  A sum over a list that is two lists laid end to end splits into the two lists' sums.
-/
import Idealize.ShloMosaic.PureOps.Ideal.Laws
import Idealize.ShloMosaic.Lib.ValueIdx
import Idealize.ShloMosaic.Lib.StableHlo.Predicate

noncomputable section

open scoped BigOperators

namespace Cert.Lib.RowOps

open Idealize.ShloMosaic Idealize.ShloMosaic.ValueIdx Idealize.ShloMosaic.StableHlo.Predicate

/-- Row `e` of the gather of a table of rows: the table's row at word `e`, read signed and clamped into the table. -/
theorem gather_rows_apply {α : Type} {N F n w : ℕ} (d : GatherDims ⟨2, ![N, F]⟩ ⟨2, ![n, 1]⟩ ⟨2, ![n, F]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, F])
    (x : (⟨2, ![N, F]⟩ : Shape).Idx → α) (idx : IVec ⟨2, ![n, 1]⟩ w) (e : Fin n) (q : Fin F) (hN : 0 < N) :
    Host.gather d x idx (ix2 e q) = x (ix2 ⟨min (idx (ixP e)).toInt.toNat (N - 1), by omega⟩ q) := by
  obtain ⟨od, cd, ob, sb, sm, iv, ss, wf⟩ := d
  simp only at hoff hcoll hob hsb hsim hivd hss
  subst hoff hcoll hob hsb hsim hivd hss
  unfold Host.gather
  congr 1
  funext a
  apply Fin.ext
  match a with
  | ⟨0, _⟩ =>
    show GatherDims.start _ (ix2 e q) idx 0 + GatherDims.batchCoord _ (ix2 e q) 0 + GatherDims.offCoord _ (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - 1) = min (idx (ixP e)).toInt.toNat (N - 1)
    congr 3
    congr 1
    funext b
    apply Fin.ext
    match b with
    | ⟨0, _⟩ => rfl
    | ⟨1, _⟩ => rfl
  | ⟨1, _⟩ =>
    show GatherDims.start _ (ix2 e q) idx 1 + GatherDims.batchCoord _ (ix2 e q) 1 + GatherDims.offCoord _ (ix2 e q) 1 = q.val
    rw [GatherDims.batchCoord_eq_zero _ _ _ List.not_mem_nil]
    unfold GatherDims.start
    rw [dif_neg (show (1 : Fin 2) ∉ [(0 : Fin 2)] by decide)]
    simp only [Nat.add_zero, Nat.zero_add]
    rfl

/-- The dimension numbers of a row scatter, as literal lists. -/
private abbrev rowsDims (N F n : ℕ) (wf : ScatterDims.WF ⟨2, ![N, F]⟩ ⟨2, ![n, 1]⟩ ⟨2, ![n, F]⟩ [1] [0] [0] 1) :
    ScatterDims ⟨2, ![N, F]⟩ ⟨2, ![n, 1]⟩ ⟨2, ![n, F]⟩ := ⟨[1], [0], [0], 1, wf⟩

section Rows
variable {N F n w : ℕ} (wf : ScatterDims.WF ⟨2, ![N, F]⟩ ⟨2, ![n, 1]⟩ ⟨2, ![n, F]⟩ [1] [0] [0] 1)
  (idx : IVec ⟨2, ![n, 1]⟩ w) (j : (⟨2, ![n, F]⟩ : Shape).Idx)

/-- On the row axis the window of update `j` starts at its row's word, read signed. -/
private theorem rowsDims_start0 : (rowsDims N F n wf).start j idx 0 = (idx (ixP (j 0))).toInt := by
  unfold ScatterDims.start
  rw [dif_pos (List.mem_singleton.mpr rfl)]
  congr 2
  funext b
  apply Fin.ext
  match b with
  | ⟨0, _⟩ => rfl
  | ⟨1, _⟩ => rfl

/-- On the entry axis the window starts at zero. -/
private theorem rowsDims_start1 : (rowsDims N F n wf).start j idx 1 = 0 := by
  unfold ScatterDims.start
  rw [dif_neg (show (1 : Fin 2) ∉ [(0 : Fin 2)] by decide)]

/-- The row axis is inserted: no window coordinate there. -/
private theorem rowsDims_window0 : (rowsDims N F n wf).window j 0 = 0 := by
  unfold ScatterDims.window
  have h : (0 : Fin 2) ∉ (rowsDims N F n wf).sKept :=
    (by decide : (0 : Fin 2) ∉ (List.finRange 2).filter (fun a => a ∉ [(0 : Fin 2)]))
  rw [dif_neg h]

/-- On the entry axis the window coordinate is the update's entry. -/
private theorem rowsDims_window1 : (rowsDims N F n wf).window j 1 = (j 1).val := by
  unfold ScatterDims.window
  have h : (1 : Fin 2) ∈ (rowsDims N F n wf).sKept :=
    (by decide : (1 : Fin 2) ∈ (List.finRange 2).filter (fun a => a ∉ [(0 : Fin 2)]))
  rw [dif_pos h]
  rfl

/-- Update `j` lands on entry `(p, q)` exactly when its row's word, read signed, is `p` and its entry is `q`. -/
private theorem rowsDims_resultIdx_iff (p : Fin N) (q : Fin F) :
    (rowsDims N F n wf).resultIdx? j idx = some (ix2 p q) ↔ (idx (ixP (j 0))).toInt = (p.val : ℤ) ∧ j 1 = q := by
  have hN : (⟨2, ![N, F]⟩ : Shape).size 0 = N := rfl
  have hF : (⟨2, ![N, F]⟩ : Shape).size 1 = F := rfl
  have hj1 : (j 1).val < F := idx2_lt1 j
  unfold ScatterDims.resultIdx?
  constructor
  · intro h
    split at h
    · next hc =>
      have h' := Option.some.inj h
      have h0 : ((rowsDims N F n wf).start j idx 0 + (rowsDims N F n wf).window j 0).toNat = p.val :=
        congrArg (fun g => (g 0).val) h'
      have h1 : ((rowsDims N F n wf).start j idx 1 + (rowsDims N F n wf).window j 1).toNat = q.val :=
        congrArg (fun g => (g 1).val) h'
      have hc0 : 0 ≤ (rowsDims N F n wf).start j idx 0 + (rowsDims N F n wf).window j 0 ∧
          (rowsDims N F n wf).start j idx 0 + (rowsDims N F n wf).window j 0 < (N : ℤ) := hc 0
      rw [rowsDims_start0, rowsDims_window0] at h0 hc0
      rw [rowsDims_start1, rowsDims_window1] at h1
      refine ⟨by omega, Fin.ext (by omega)⟩
    · exact absurd h (by simp)
  · rintro ⟨hW, hq⟩
    have hc : ∀ a, 0 ≤ (rowsDims N F n wf).start j idx a + (rowsDims N F n wf).window j a ∧
        (rowsDims N F n wf).start j idx a + (rowsDims N F n wf).window j a < (⟨2, ![N, F]⟩ : Shape).size a := by
      intro a
      match a with
      | ⟨0, _⟩ =>
        show 0 ≤ (rowsDims N F n wf).start j idx 0 + (rowsDims N F n wf).window j 0 ∧
          (rowsDims N F n wf).start j idx 0 + (rowsDims N F n wf).window j 0 < (⟨2, ![N, F]⟩ : Shape).size 0
        rw [rowsDims_start0, rowsDims_window0, hW, hN]
        have := p.isLt
        omega
      | ⟨1, _⟩ =>
        show 0 ≤ (rowsDims N F n wf).start j idx 1 + (rowsDims N F n wf).window j 1 ∧
          (rowsDims N F n wf).start j idx 1 + (rowsDims N F n wf).window j 1 < (⟨2, ![N, F]⟩ : Shape).size 1
        rw [rowsDims_start1, rowsDims_window1, hF]
        omega
    rw [dif_pos hc]
    congr 1
    funext a
    apply Fin.ext
    match a with
    | ⟨0, _⟩ =>
      show ((rowsDims N F n wf).start j idx 0 + (rowsDims N F n wf).window j 0).toNat = p.val
      rw [rowsDims_start0, rowsDims_window0, hW]
      omega
    | ⟨1, _⟩ =>
      show ((rowsDims N F n wf).start j idx 1 + (rowsDims N F n wf).window j 1).toNat = q.val
      rw [rowsDims_start1, rowsDims_window1, ← hq]
      omega

end Rows

/-- Entry `(p, q)` of a row scatter-add over the extended reals: the operand's entry plus the updates of the rows whose word is `p`. -/
theorem scatterAdd_rows_apply {N F n w : ℕ} {φ : FTy} (d : ScatterDims ⟨2, ![N, F]⟩ ⟨2, ![n, 1]⟩ ⟨2, ![n, F]⟩)
    (huw : d.updateWindowDims = [1]) (hiw : d.insertedWindowDims = [0]) (hsd : d.scatterDimsToOperandDims = [0])
    (hivd : d.indexVectorDim = 1)
    (x : FVec Ideal ⟨2, ![N, F]⟩ φ) (idx : IVec ⟨2, ![n, 1]⟩ w) (upd : FVec Ideal ⟨2, ![n, F]⟩ φ) (p : Fin N) (q : Fin F) :
    Host.scatterAdd d x idx upd (ix2 p q)
      = x (ix2 p q) + ∑ e ∈ Finset.univ.filter (fun e : Fin n => (idx (ixP e)).toInt = (p.val : ℤ)), upd (ix2 e q) := by
  obtain ⟨uw, iw, sd, iv, wf⟩ := d
  simp only at huw hiw hsd hivd
  subst huw hiw hsd hivd
  show Ideal.hostScatterAdd (rowsDims N F n wf) x idx upd (ix2 p q) = _
  simp only [Ideal.hostScatterAdd]
  congr 1
  have key : ∀ j, j ∈ Finset.univ.filter (fun j => (rowsDims N F n wf).resultIdx? j idx = some (ix2 p q)) →
      (idx (ixP (j 0))).toInt = (p.val : ℤ) ∧ j 1 = q :=
    fun j hj => (rowsDims_resultIdx_iff wf idx j p q).1 (Finset.mem_filter.1 hj).2
  refine Finset.sum_nbij' (fun j => j 0) (fun e => ix2 e q) ?_ ?_ ?_ ?_ ?_
  · intro j hj
    exact Finset.mem_filter.2 ⟨Finset.mem_univ _, (key j hj).1⟩
  · intro e he
    exact Finset.mem_filter.2 ⟨Finset.mem_univ _,
      (rowsDims_resultIdx_iff wf idx (ix2 e q) p q).2 ⟨(Finset.mem_filter.1 he).2, rfl⟩⟩
  · intro j hj
    rw [← (key j hj).2]
    exact (eq_ix2 j).symm
  · intro e _
    rfl
  · intro j hj
    show upd j = upd (ix2 (j 0) q)
    rw [← (key j hj).2]
    exact congrArg upd (eq_ix2 j)

/-- The dimension numbers of a scatter of scalars, as literal lists. -/
private abbrev vecDims (N n : ℕ) (wf : ScatterDims.WF ⟨1, ![N]⟩ ⟨2, ![n, 1]⟩ ⟨1, ![n]⟩ [] [0] [0] 1) :
    ScatterDims ⟨1, ![N]⟩ ⟨2, ![n, 1]⟩ ⟨1, ![n]⟩ := ⟨[], [0], [0], 1, wf⟩

section Vec
variable {N n w : ℕ} (wf : ScatterDims.WF ⟨1, ![N]⟩ ⟨2, ![n, 1]⟩ ⟨1, ![n]⟩ [] [0] [0] 1)
  (idx : IVec ⟨2, ![n, 1]⟩ w) (j : (⟨1, ![n]⟩ : Shape).Idx)

/-- The window of update `j` starts at its word, read signed. -/
private theorem vecDims_start0 : (vecDims N n wf).start j idx 0 = (idx (ixP (j 0))).toInt := by
  unfold ScatterDims.start
  rw [dif_pos (List.mem_singleton.mpr rfl)]
  congr 2
  funext b
  apply Fin.ext
  match b with
  | ⟨0, _⟩ => rfl
  | ⟨1, _⟩ => rfl

/-- The one operand axis is inserted: no window coordinate there. -/
private theorem vecDims_window0 : (vecDims N n wf).window j 0 = 0 := by
  unfold ScatterDims.window
  have h : (0 : Fin 1) ∉ (vecDims N n wf).sKept :=
    (by decide : (0 : Fin 1) ∉ (List.finRange 1).filter (fun a => a ∉ [(0 : Fin 1)]))
  rw [dif_neg h]

/-- Update `j` lands on entry `p` exactly when its word, read signed, is `p`. -/
private theorem vecDims_resultIdx_iff (p : Fin N) :
    (vecDims N n wf).resultIdx? j idx = some (ix1 p) ↔ (idx (ixP (j 0))).toInt = (p.val : ℤ) := by
  unfold ScatterDims.resultIdx?
  constructor
  · intro h
    split at h
    · next hc =>
      have h' := Option.some.inj h
      have h0 : ((vecDims N n wf).start j idx 0 + (vecDims N n wf).window j 0).toNat = p.val :=
        congrArg (fun g => (g 0).val) h'
      have hc0 : 0 ≤ (vecDims N n wf).start j idx 0 + (vecDims N n wf).window j 0 ∧
          (vecDims N n wf).start j idx 0 + (vecDims N n wf).window j 0 < (N : ℤ) := hc 0
      rw [vecDims_start0, vecDims_window0] at h0 hc0
      omega
    · exact absurd h (by simp)
  · intro hW
    have hc : ∀ a, 0 ≤ (vecDims N n wf).start j idx a + (vecDims N n wf).window j a ∧
        (vecDims N n wf).start j idx a + (vecDims N n wf).window j a < (⟨1, ![N]⟩ : Shape).size a := by
      intro a
      match a with
      | ⟨0, _⟩ =>
        show 0 ≤ (vecDims N n wf).start j idx 0 + (vecDims N n wf).window j 0 ∧
          (vecDims N n wf).start j idx 0 + (vecDims N n wf).window j 0 < (N : ℤ)
        rw [vecDims_start0, vecDims_window0, hW]
        have := p.isLt
        omega
    rw [dif_pos hc]
    congr 1
    funext a
    apply Fin.ext
    match a with
    | ⟨0, _⟩ =>
      show ((vecDims N n wf).start j idx 0 + (vecDims N n wf).window j 0).toNat = p.val
      rw [vecDims_start0, vecDims_window0, hW]
      omega

end Vec

/-- Entry `p` of a scatter-add of scalars over the extended reals: the operand's entry plus the updates whose word is `p`. -/
theorem scatterAdd_vec_apply {N n w : ℕ} {φ : FTy} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![n, 1]⟩ w) (upd : FVec Ideal ⟨1, ![n]⟩ φ) (p : Fin N) :
    Host.scatterAdd d x idx upd (ix1 p)
      = x (ix1 p) + ∑ e ∈ Finset.univ.filter (fun e : Fin n => (idx (ixP e)).toInt = (p.val : ℤ)), upd (ix1 e) := by
  obtain ⟨uw, iw, sd, iv, wf⟩ := d
  simp only at huw hiw hsd hivd
  subst huw hiw hsd hivd
  show Ideal.hostScatterAdd (vecDims N n wf) x idx upd (ix1 p) = _
  simp only [Ideal.hostScatterAdd]
  congr 1
  have key : ∀ j, j ∈ Finset.univ.filter (fun j => (vecDims N n wf).resultIdx? j idx = some (ix1 p)) →
      (idx (ixP (j 0))).toInt = (p.val : ℤ) :=
    fun j hj => (vecDims_resultIdx_iff wf idx j p).1 (Finset.mem_filter.1 hj).2
  refine Finset.sum_nbij' (fun j => j 0) (fun e => ix1 e) ?_ ?_ ?_ ?_ ?_
  · intro j hj
    exact Finset.mem_filter.2 ⟨Finset.mem_univ _, key j hj⟩
  · intro e he
    exact Finset.mem_filter.2 ⟨Finset.mem_univ _,
      (vecDims_resultIdx_iff wf idx (ix1 e) p).2 (Finset.mem_filter.1 he).2⟩
  · intro j _
    exact (eq_ix1 j).symm
  · intro e _
    rfl
  · intro j _
    exact congrArg upd (eq_ix1 j)

/-- A filtered sum over a list of `A + B` positions is the filtered sum over the first `A` plus that over the last `B`. -/
theorem sum_filter_split {M : Type*} [AddCommMonoid M] {A B n : ℕ} (h : n = A + B) (P : Fin n → Prop) [DecidablePred P]
    (f : Fin n → M) :
    ∑ j ∈ Finset.univ.filter P, f j
      = ∑ e ∈ (Finset.univ : Finset (Fin A)).filter (fun e => P ⟨e.val, by omega⟩), f ⟨e.val, by omega⟩
        + ∑ i ∈ (Finset.univ : Finset (Fin B)).filter (fun i => P ⟨A + i.val, by omega⟩), f ⟨A + i.val, by omega⟩ := by
  subst h
  rw [Finset.sum_filter, Finset.sum_filter, Finset.sum_filter, Fin.sum_univ_add]
  rfl

end Cert.Lib.RowOps

end
-- ==== Proof.Consts.lean ====
/-
  The two float constants the programs spell, as the extended reals their bit patterns denote: `+0.0` is `0` and `1.0` is `1`.
-/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

end Cert.Consts

end
-- ==== Proof.KHost.lean ====
/-
  The host operations between the regions, as functions of the buffers they read.

  Before the first region: the two rows of the edge array are taken apart, the degree of a node is one per incoming
  edge plus one, and its guarded inverse square root is stored as a column. Between the regions of a layer: the scaled
  table's rows are gathered at the source words and added up at the destination words, and the bias is stored as a row.
  Each of these is read here at one entry: the degree is `degK`, the column entry is `dinvOf` of it, the edge sum at
  `(p, q)` is the sum over the edges landing on `p` of the table's row at the edge's source, column `q`.
-/
import proofs.«428375_j76158360092902_4_alg».proof.Proof.Gen.KernelIdeal.Launch
import proofs.«428375_j76158360092902_4_alg».proof.Proof.Spec
import proofs.«428375_j76158360092902_4_alg».proof.Proof.LibRowOps
import proofs.«428375_j76158360092902_4_alg».proof.Proof.Consts
import Idealize.ShloMosaic.Lib.ValueIdx
import Idealize.ShloMosaic.Lib.Pipeline.Value
import Idealize.ShloMosaic.Lib.StableHlo.Run
import Idealize.ShloMosaic.Lib.StableHlo.Predicate
import Idealize.ShloMosaic.PureOps.Ideal.Laws

set_option maxRecDepth 16384

noncomputable section

open scoped BigOperators

namespace Cert.KernelIdeal.KHost

open Idealize.ShloMosaic Idealize.ShloMosaic.TcCoe Idealize.SL.Sem Idealize.ShloMosaic.ValueIdx
open Idealize.ShloMosaic.StableHlo Idealize.ShloMosaic.StableHlo.Predicate
open Cert.KernelIdeal Cert.KernelIdeal.Facts₀ Cert.KernelIdeal.Facts Cert.GCN
open Cert.KernelIdeal.Gen (hostOps0 hostOps0_1 hostOps0_2 hostOps1 hostOps3)

/-! ## The operations' terms -/

/-- Row 0 of the edge array as a list of words. -/
def row0 (a1 : IVec S2x3200000 32) : IVec S3200000 32 :=
  shapeCast S3200000 (extractStridedSlice S1x3200000 ![0, 0] a1 slices_S2x3200000_S1x3200000_0_0) shapeCasts_S1x3200000_S3200000

/-- Row 1 of the edge array as a list of words. -/
def row1 (a1 : IVec S2x3200000 32) : IVec S3200000 32 :=
  shapeCast S3200000 (extractStridedSlice S1x3200000 ![1, 0] a1 slices_S2x3200000_S1x3200000_1_0) shapeCasts_S1x3200000_S3200000

/-- The degrees: one per edge added at the edge's destination word, plus one. -/
def degVec (dw : IVec S3200000 32) : FVec Ideal S100000 .f32 :=
  addf
    (Host.scatterAdd scatter_S100000_S3200000x1_S3200000_n_0_0_1
      (broadcastInDim S100000 ![] bcast_S_S100000 (constant S_ .f32 0x00000000#32))
      (broadcastInDim S3200000x1 ![0] bcast_S3200000_S3200000x1_0 dw)
      (broadcastInDim S3200000 ![] bcast_S_S3200000 (constant S_ .f32 0x3F800000#32)))
    (broadcastInDim S100000 ![] bcast_S_S100000 (constant S_ .f32 0x3F800000#32))

/-- A gather's index column: the words, a negative one shifted up by the table's length. -/
def normIdx (sw : IVec S3200000 32) : IVec S3200000x1 32 :=
  broadcastInDim S3200000x1 ![0] bcast_S3200000_S3200000x1_0
    (select (cmpi .slt sw (broadcastInDim S3200000 ![] bcast_S_S3200000 (constantI S_ 32 0#32)))
      (addi sw (broadcastInDim S3200000 ![] bcast_S_S3200000 (constantI S_ 32 100000#32))) sw)

/-- The sixteen-column table's rows gathered at the source words and added up at the destination words. -/
def edgeSum16 (y : FVec Ideal S100000x16 .f32) (sw dw : IVec S3200000 32) : FVec Ideal S100000x16 .f32 :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 dw)
    (Host.gather gather_S100000x16_S3200000x1_S3200000x16_1_0_n_n_0_1_116 y (normIdx sw))

/-- The forty-column table's rows gathered at the source words and added up at the destination words. -/
def edgeSum40 (y : FVec Ideal S100000x40 .f32) (sw dw : IVec S3200000 32) : FVec Ideal S100000x40 .f32 :=
  Host.scatterAdd scatter_S100000x40_S3200000x1_S3200000x40_1_0_0_1
    (broadcastInDim S100000x40 ![] bcast_S_S100000x40 (constant S_ .f32 0x00000000#32))
    (broadcastInDim S3200000x1 ![0] bcast_S3200000_S3200000x1_0 dw)
    (Host.gather gather_S100000x40_S3200000x1_S3200000x40_1_0_n_n_0_1_140 y (normIdx sw))

/-! ## What each stretch leaves, from any contents `W` -/

variable (W : Valuation τ sig (Elt Ideal))

theorem ops0_v1 : after hostOps0 W (Proc.devRef .tc main_v1) = row0 (W (Proc.devRef .tc main_arg1)) := by
  after_results; rfl

theorem ops0_v3 : after hostOps0 W (Proc.devRef .tc main_v3) = row1 (W (Proc.devRef .tc main_arg1)) := by
  after_results; rfl

theorem ops0_v9 : after hostOps0 W (Proc.devRef .tc main_v9) = degVec (row1 (W (Proc.devRef .tc main_arg1))) := by
  after_results; rfl

theorem ops0_v11 : after hostOps0 W (Proc.devRef .tc main_v11)
    = cmpf .ogt (degVec (row1 (W (Proc.devRef .tc main_arg1)))) (broadcastInDim S100000 ![] bcast_S_S100000 (constant S_ .f32 0x00000000#32)) := by
  after_results; rfl

theorem ops0_v12 : after hostOps0 W (Proc.devRef .tc main_v12) = Host.rsqrt (degVec (row1 (W (Proc.devRef .tc main_arg1)))) := by
  after_results; rfl

theorem ops0_cst3 : after hostOps0 W (Proc.devRef .tc main_cst_3) = constant (F := Ideal) S_ .f32 0x00000000#32 := by
  after_results

theorem ops0_arg0 : after hostOps0 W (Proc.devRef .tc main_arg0) = W (Proc.devRef .tc main_arg0) := by after_results
theorem ops0_arg2 : after hostOps0 W (Proc.devRef .tc main_arg2) = W (Proc.devRef .tc main_arg2) := by after_results
theorem ops0_arg3 : after hostOps0 W (Proc.devRef .tc main_arg3) = W (Proc.devRef .tc main_arg3) := by after_results
theorem ops0_arg4 : after hostOps0 W (Proc.devRef .tc main_arg4) = W (Proc.devRef .tc main_arg4) := by after_results
theorem ops0_arg5 : after hostOps0 W (Proc.devRef .tc main_arg5) = W (Proc.devRef .tc main_arg5) := by after_results

/-- The guarded inverse square roots, from the compare's, the root's and the zero's buffers. -/
theorem ops01_v13 : after hostOps0_1 W (Proc.devRef .tc main_v13)
    = select (W (Proc.devRef .tc main_v11)) (W (Proc.devRef .tc main_v12))
        (broadcastInDim S100000 ![] bcast_S_S100000 (W (Proc.devRef .tc main_cst_3))) := by
  after_results; rfl

theorem ops01_v1 : after hostOps0_1 W (Proc.devRef .tc main_v1) = W (Proc.devRef .tc main_v1) := by after_results
theorem ops01_v3 : after hostOps0_1 W (Proc.devRef .tc main_v3) = W (Proc.devRef .tc main_v3) := by after_results
theorem ops01_arg0 : after hostOps0_1 W (Proc.devRef .tc main_arg0) = W (Proc.devRef .tc main_arg0) := by after_results
theorem ops01_arg2 : after hostOps0_1 W (Proc.devRef .tc main_arg2) = W (Proc.devRef .tc main_arg2) := by after_results
theorem ops01_arg3 : after hostOps0_1 W (Proc.devRef .tc main_arg3) = W (Proc.devRef .tc main_arg3) := by after_results
theorem ops01_arg4 : after hostOps0_1 W (Proc.devRef .tc main_arg4) = W (Proc.devRef .tc main_arg4) := by after_results
theorem ops01_arg5 : after hostOps0_1 W (Proc.devRef .tc main_arg5) = W (Proc.devRef .tc main_arg5) := by after_results

theorem ops02_v14 : after hostOps0_2 W (Proc.devRef .tc main_v14)
    = shapeCast S100000x1 (W (Proc.devRef .tc main_v13)) shapeCasts_S100000_S100000x1 := by
  after_results; rfl

theorem ops02_v1 : after hostOps0_2 W (Proc.devRef .tc main_v1) = W (Proc.devRef .tc main_v1) := by after_results
theorem ops02_v3 : after hostOps0_2 W (Proc.devRef .tc main_v3) = W (Proc.devRef .tc main_v3) := by after_results
theorem ops02_arg0 : after hostOps0_2 W (Proc.devRef .tc main_arg0) = W (Proc.devRef .tc main_arg0) := by after_results
theorem ops02_arg2 : after hostOps0_2 W (Proc.devRef .tc main_arg2) = W (Proc.devRef .tc main_arg2) := by after_results
theorem ops02_arg3 : after hostOps0_2 W (Proc.devRef .tc main_arg3) = W (Proc.devRef .tc main_arg3) := by after_results
theorem ops02_arg4 : after hostOps0_2 W (Proc.devRef .tc main_arg4) = W (Proc.devRef .tc main_arg4) := by after_results
theorem ops02_arg5 : after hostOps0_2 W (Proc.devRef .tc main_arg5) = W (Proc.devRef .tc main_arg5) := by after_results

/-- The first layer's edge sums, from the scaled table's and the two word lists' buffers. -/
theorem ops1_v25 : after hostOps1 W (Proc.devRef .tc main_v25)
    = edgeSum16 (W (Proc.devRef .tc main_v15)) (W (Proc.devRef .tc main_v1)) (W (Proc.devRef .tc main_v3)) := by
  after_results; rfl

theorem ops1_v26 : after hostOps1 W (Proc.devRef .tc main_v26) = shapeCast S1x16 (W (Proc.devRef .tc main_arg3)) shapeCasts_S16_S1x16 := by
  after_results; rfl

theorem ops1_v14 : after hostOps1 W (Proc.devRef .tc main_v14) = W (Proc.devRef .tc main_v14) := by after_results
theorem ops1_v15 : after hostOps1 W (Proc.devRef .tc main_v15) = W (Proc.devRef .tc main_v15) := by after_results
theorem ops1_v1 : after hostOps1 W (Proc.devRef .tc main_v1) = W (Proc.devRef .tc main_v1) := by after_results
theorem ops1_v3 : after hostOps1 W (Proc.devRef .tc main_v3) = W (Proc.devRef .tc main_v3) := by after_results
theorem ops1_arg4 : after hostOps1 W (Proc.devRef .tc main_arg4) = W (Proc.devRef .tc main_arg4) := by after_results
theorem ops1_arg5 : after hostOps1 W (Proc.devRef .tc main_arg5) = W (Proc.devRef .tc main_arg5) := by after_results

/-- The second layer's edge sums, from the scaled table's and the two word lists' buffers. -/
theorem ops3_v38 : after hostOps3 W (Proc.devRef .tc main_v38)
    = edgeSum40 (W (Proc.devRef .tc main_v28)) (W (Proc.devRef .tc main_v1)) (W (Proc.devRef .tc main_v3)) := by
  after_results; rfl

theorem ops3_v39 : after hostOps3 W (Proc.devRef .tc main_v39) = shapeCast S1x40 (W (Proc.devRef .tc main_arg5)) shapeCasts_S40_S1x40 := by
  after_results; rfl

theorem ops3_v14 : after hostOps3 W (Proc.devRef .tc main_v14) = W (Proc.devRef .tc main_v14) := by after_results
theorem ops3_v28 : after hostOps3 W (Proc.devRef .tc main_v28) = W (Proc.devRef .tc main_v28) := by after_results

/-! ## The terms read at an entry -/

/-- Row 0 of the edge array, word `e`. -/
theorem row0_apply (a1 : IVec S2x3200000 32) (e : Fin 3200000) : row0 a1 (ix1 e) = a1 (ix2 0 e) := by
  unfold row0
  refine (shapeCast_apply _ shapeCasts_S1x3200000_S3200000 (ix1 e) (ix2 0 e) ?_).trans ?_
  · rewrite [Shape.rowMajor_val_two, Shape.rowMajor_val_one]
    show 0 * 3200000 + e.val = e.val
    omega
  · exact extractStridedSlice_apply ![0, 0] a1 slices_S2x3200000_S1x3200000_0_0 (ix2 0 e) (ix2 0 e) (fun a => match a with
      | ⟨0, _⟩ => by show (0 : ℕ) = 0 + 0; rfl
      | ⟨1, _⟩ => by show e.val = 0 + e.val; omega)

/-- Row 1 of the edge array, word `e`. -/
theorem row1_apply (a1 : IVec S2x3200000 32) (e : Fin 3200000) : row1 a1 (ix1 e) = a1 (ix2 1 e) := by
  unfold row1
  refine (shapeCast_apply _ shapeCasts_S1x3200000_S3200000 (ix1 e) (ix2 0 e) ?_).trans ?_
  · rewrite [Shape.rowMajor_val_two, Shape.rowMajor_val_one]
    show 0 * 3200000 + e.val = e.val
    omega
  · exact extractStridedSlice_apply ![1, 0] a1 slices_S2x3200000_S1x3200000_1_0 (ix2 0 e) (ix2 1 e) (fun a => match a with
      | ⟨0, _⟩ => by show (1 : ℕ) = 1 + 0; rfl
      | ⟨1, _⟩ => by show e.val = 0 + e.val; omega)

/-- A scalar spread over a shape reads as the scalar everywhere. -/
theorem bcast_scalar_apply {α : Type} {t : Shape} (h : S_.BroadcastsInDim t (![] : Fin 0 → Fin t.rank)) (x : S_.Idx → α) (j : t.Idx) :
    broadcastInDim t ![] h x j = x ix0 :=
  broadcastInDim_apply _ h x j ix0 (fun a => a.elim0)

/-- A list of words laid as a column reads, at row `e`, as word `e`. -/
theorem column_apply (dw : IVec S3200000 32) (e : Fin 3200000) :
    broadcastInDim S3200000x1 ![0] bcast_S3200000_S3200000x1_0 dw (ixP e) = dw (ix1 e) :=
  broadcastInDim_apply _ bcast_S3200000_S3200000x1_0 dw (ixP e) (ix1 e) (fun a => match a with
    | ⟨0, _⟩ => by show e.val = if (3200000 : Nat) = 1 then 0 else e.val; rw [if_neg (by decide)])

/-- The degree of node `p`: one per edge landing on it, plus one. -/
theorem degVec_apply (dw : IVec S3200000 32) (p : Fin 100000) : degVec dw (ix1 p) = degK (fun e => dw (ix1 e)) p := by
  unfold degVec degK inEdges
  rw [addf_apply, Cert.Lib.RowOps.scatterAdd_vec_apply _ rfl rfl rfl rfl]
  have h0 : broadcastInDim S100000 ![] bcast_S_S100000 (constant (F := Ideal) S_ .f32 0x00000000#32) (ix1 p) = 0 := by
    rw [bcast_scalar_apply, constant_apply]; exact Cert.Consts.ofBits_zero
  have h1 : broadcastInDim S100000 ![] bcast_S_S100000 (constant (F := Ideal) S_ .f32 0x3F800000#32) (ix1 p) = 1 := by
    rw [bcast_scalar_apply, constant_apply]; exact Cert.Consts.ofBits_one
  rw [h0, h1]
  refine congrArg (fun s : EReal => 0 + s + 1) ?_
  refine Finset.sum_congr (Finset.filter_congr fun e _ => by rw [column_apply]) fun e _ => ?_
  rw [bcast_scalar_apply, constant_apply]; exact Cert.Consts.ofBits_one

/-- A gather's index column at row `e`: the source word, normalised. -/
theorem normIdx_apply (sw : IVec S3200000 32) (e : Fin 3200000) : normIdx sw (ixP e) = normWord 100000 (sw (ix1 e)) := by
  unfold normIdx
  rw [column_apply]
  rfl

/-- The edge sum of a sixteen-column table at `(p, q)`: over the edges landing on `p`, the table's row at the edge's source. -/
theorem edgeSum16_apply (y : FVec Ideal S100000x16 .f32) (sw dw : IVec S3200000 32) (p : Fin 100000) (q : Fin 16) :
    edgeSum16 y sw dw (ix2 p q)
      = 0 + ∑ e ∈ inEdges (fun e => dw (ix1 e)) p, y (ix2 (rowOf 100000 (by norm_num) (sw (ix1 e))) q) := by
  unfold edgeSum16 inEdges
  rw [Cert.Lib.RowOps.scatterAdd_rows_apply _ rfl rfl rfl rfl, bcast_scalar_apply, constant_apply, Cert.Consts.ofBits_zero]
  refine congrArg (fun s : EReal => 0 + s) ?_
  refine Finset.sum_congr (Finset.filter_congr fun e _ => by rw [column_apply]) fun e _ => ?_
  rw [Cert.Lib.RowOps.gather_rows_apply _ rfl rfl rfl rfl rfl rfl rfl _ _ e q (by norm_num)]
  refine congrArg (fun r : Fin 100000 => y (ix2 r q)) (Fin.ext ?_)
  show min (normIdx sw (ixP e)).toInt.toNat (100000 - 1) = min (normWord 100000 (sw (ix1 e))).toInt.toNat (100000 - 1)
  rw [normIdx_apply]

/-- The edge sum of a forty-column table at `(p, q)`. -/
theorem edgeSum40_apply (y : FVec Ideal S100000x40 .f32) (sw dw : IVec S3200000 32) (p : Fin 100000) (q : Fin 40) :
    edgeSum40 y sw dw (ix2 p q)
      = 0 + ∑ e ∈ inEdges (fun e => dw (ix1 e)) p, y (ix2 (rowOf 100000 (by norm_num) (sw (ix1 e))) q) := by
  unfold edgeSum40 inEdges
  rw [Cert.Lib.RowOps.scatterAdd_rows_apply _ rfl rfl rfl rfl, bcast_scalar_apply, constant_apply, Cert.Consts.ofBits_zero]
  refine congrArg (fun s : EReal => 0 + s) ?_
  refine Finset.sum_congr (Finset.filter_congr fun e _ => by rw [column_apply]) fun e _ => ?_
  rw [Cert.Lib.RowOps.gather_rows_apply _ rfl rfl rfl rfl rfl rfl rfl _ _ e q (by norm_num)]
  refine congrArg (fun r : Fin 100000 => y (ix2 r q)) (Fin.ext ?_)
  show min (normIdx sw (ixP e)).toInt.toNat (100000 - 1) = min (normWord 100000 (sw (ix1 e))).toInt.toNat (100000 - 1)
  rw [normIdx_apply]

/-- The guarded inverse square root column at row `p`. -/
theorem dinvCol_apply (deg : FVec Ideal S100000 .f32) (z : FVec Ideal S_ .f32) (hz : z ix0 = 0) (p : Fin 100000) :
    shapeCast S100000x1
        (select (cmpf .ogt deg (broadcastInDim S100000 ![] bcast_S_S100000 (constant S_ .f32 0x00000000#32))) (Host.rsqrt deg)
          (broadcastInDim S100000 ![] bcast_S_S100000 z))
        shapeCasts_S100000_S100000x1 (ix2 p 0)
      = dinvOf (deg (ix1 p)) := by
  refine (shapeCast_apply _ shapeCasts_S100000_S100000x1 (ix2 p 0) (ix1 p) ?_).trans ?_
  · rewrite [Shape.rowMajor_val_two, Shape.rowMajor_val_one]
    show p.val = p.val * 1 + 0
    omega
  · rw [select_apply, cmpf_apply, bcast_scalar_apply, bcast_scalar_apply, constant_apply, Cert.Consts.ofBits_zero, hz]
    rfl

/-- A bias list stored as a one-row table reads, at column `q`, as entry `q` (sixteen columns). -/
theorem biasRow16_apply (b : FVec Ideal S16 .f32) (q : Fin 16) : shapeCast S1x16 b shapeCasts_S16_S1x16 (ix2 0 q) = b (ix1 q) := by
  refine shapeCast_apply _ shapeCasts_S16_S1x16 (ix2 0 q) (ix1 q) ?_
  rewrite [Shape.rowMajor_val_two, Shape.rowMajor_val_one]
  show q.val = 0 * 16 + q.val
  omega

/-- A bias list stored as a one-row table reads, at column `q`, as entry `q` (forty columns). -/
theorem biasRow40_apply (b : FVec Ideal S40 .f32) (q : Fin 40) : shapeCast S1x40 b shapeCasts_S40_S1x40 (ix2 0 q) = b (ix1 q) := by
  refine shapeCast_apply _ shapeCasts_S40_S1x40 (ix2 0 q) (ix1 q) ?_
  rewrite [Shape.rowMajor_val_two, Shape.rowMajor_val_one]
  show q.val = 0 * 40 + q.val
  omega

end Cert.KernelIdeal.KHost

end
-- ==== Proof.KValue.lean ====
/-
  The kernel program's result array, entry by entry.

  The program alternates host stretches and regions. Reading the buffers boundary by boundary: the scale column holds the
  guarded inverse square roots of the degrees; the first product region leaves `y₁ = dinv · (x W₁)`; the host sums `y₁`'s rows
  over the incoming edges; the first combining region leaves `h = max (dinv · (s₁ + y₁) + b₁) 0`; the second product region
  leaves `y₂ = dinv · (h W₂)`; the host sums `y₂`'s rows over the incoming edges; the second combining region leaves
  `dinv · (s₂ + y₂) + b₂`. That is the network in its "scaled tables first" arrangement.
-/
import proofs.«428375_j76158360092902_4_alg».proof.Proof.Gen.KernelIdeal.Frame
import proofs.«428375_j76158360092902_4_alg».proof.Proof.KRegion0
import proofs.«428375_j76158360092902_4_alg».proof.Proof.KRegion1
import proofs.«428375_j76158360092902_4_alg».proof.Proof.KRegion2
import proofs.«428375_j76158360092902_4_alg».proof.Proof.KRegion3
import proofs.«428375_j76158360092902_4_alg».proof.Proof.KHost
import proofs.«428375_j76158360092902_4_alg».proof.Proof.Spec

set_option maxRecDepth 16384

noncomputable section

open scoped BigOperators

namespace Cert.KernelIdeal.KValue

open Idealize.ShloMosaic Idealize.ShloMosaic.TcCoe Idealize.SL.Sem Idealize.ShloMosaic.ValueIdx
open Idealize.ShloMosaic.StableHlo
open Cert.KernelIdeal Cert.KernelIdeal.Gen Cert.KernelIdeal.KHost Cert.GCN

variable (m : (ℓ : Loc nD τ sig) → Buf (Elt Ideal) ℓ) (ρ : Dev nD → PrngReg)

/-! ## The arguments and the tables the boundaries hold -/

abbrev A0 (c : Dev nD) : S100000x256.Idx → EReal := m ((c : Thread nD τ).loc main_arg0)
abbrev A1 (c : Dev nD) : S2x3200000.Idx → BitVec 32 := m ((c : Thread nD τ).loc main_arg1)
abbrev A2 (c : Dev nD) : S256x16.Idx → EReal := m ((c : Thread nD τ).loc main_arg2)
abbrev A3 (c : Dev nD) : S16.Idx → EReal := m ((c : Thread nD τ).loc main_arg3)
abbrev A4 (c : Dev nD) : S16x40.Idx → EReal := m ((c : Thread nD τ).loc main_arg4)
abbrev A5 (c : Dev nD) : S40.Idx → EReal := m ((c : Thread nD τ).loc main_arg5)

/-- The scale of node `p`. -/
def dinvT (c : Dev nD) (p : Fin 100000) : EReal := dinvOf (degK (dstWords (A1 m c)) p)
/-- The source row of edge `e`. -/
def srowT (c : Dev nD) (e : Fin 3200000) : Fin 100000 := srcRows 100000 (by norm_num) (A1 m c) e
def z1T (c : Dev nD) (p : Fin 100000) (q : Fin 16) : EReal := ∑ k : Fin 256, A0 m c (ix2 p k) * A2 m c (ix2 k q)
def y1T (c : Dev nD) (p : Fin 100000) (q : Fin 16) : EReal := dinvT m c p * z1T m c p q
def s1T (c : Dev nD) (p : Fin 100000) (q : Fin 16) : EReal :=
  0 + ∑ e ∈ inEdges (dstWords (A1 m c)) p, y1T m c (srowT m c e) q
def hT (c : Dev nD) (p : Fin 100000) (q : Fin 16) : EReal :=
  max (dinvT m c p * (s1T m c p q + y1T m c p q) + A3 m c (ix1 q)) 0
def z2T (c : Dev nD) (p : Fin 100000) (q : Fin 40) : EReal := ∑ k : Fin 16, hT m c p k * A4 m c (ix2 k q)
def y2T (c : Dev nD) (p : Fin 100000) (q : Fin 40) : EReal := dinvT m c p * z2T m c p q
def s2T (c : Dev nD) (p : Fin 100000) (q : Fin 40) : EReal :=
  0 + ∑ e ∈ inEdges (dstWords (A1 m c)) p, y2T m c (srowT m c e) q
def outT (c : Dev nD) (p : Fin 100000) (q : Fin 40) : EReal :=
  dinvT m c p * (s2T m c p q + y2T m c p q) + A5 m c (ix1 q)

/-- The tables compose to the network's first arrangement. -/
theorem outT_eq (c : Dev nD) (p : Fin 100000) (q : Fin 40) :
    outT m c p q = outK (tab2 (A0 m c)) (dstWords (A1 m c)) (srcRows 100000 (by norm_num) (A1 m c)) (tab2 (A2 m c)) (vec1 (A3 m c))
      (tab2 (A4 m c)) (vec1 (A5 m c)) p q := rfl

/-! ## Region 0's entry: after the first three stretches -/

theorem W3_v1 (c : Dev nD) : W3 m ρ c (Proc.devRef .tc main_v1) = row0 (A1 m c) :=
  (ops02_v1 (W2 m ρ c)).trans ((ops01_v1 (W1 m ρ c)).trans (ops0_v1 (W0 m ρ c)))
theorem W3_v3 (c : Dev nD) : W3 m ρ c (Proc.devRef .tc main_v3) = row1 (A1 m c) :=
  (ops02_v3 (W2 m ρ c)).trans ((ops01_v3 (W1 m ρ c)).trans (ops0_v3 (W0 m ρ c)))
theorem W3_arg0 (c : Dev nD) : W3 m ρ c (Proc.devRef .tc main_arg0) = A0 m c :=
  (ops02_arg0 (W2 m ρ c)).trans ((ops01_arg0 (W1 m ρ c)).trans (ops0_arg0 (W0 m ρ c)))
theorem W3_arg2 (c : Dev nD) : W3 m ρ c (Proc.devRef .tc main_arg2) = A2 m c :=
  (ops02_arg2 (W2 m ρ c)).trans ((ops01_arg2 (W1 m ρ c)).trans (ops0_arg2 (W0 m ρ c)))
theorem W3_arg3 (c : Dev nD) : W3 m ρ c (Proc.devRef .tc main_arg3) = A3 m c :=
  (ops02_arg3 (W2 m ρ c)).trans ((ops01_arg3 (W1 m ρ c)).trans (ops0_arg3 (W0 m ρ c)))
theorem W3_arg4 (c : Dev nD) : W3 m ρ c (Proc.devRef .tc main_arg4) = A4 m c :=
  (ops02_arg4 (W2 m ρ c)).trans ((ops01_arg4 (W1 m ρ c)).trans (ops0_arg4 (W0 m ρ c)))
theorem W3_arg5 (c : Dev nD) : W3 m ρ c (Proc.devRef .tc main_arg5) = A5 m c :=
  (ops02_arg5 (W2 m ρ c)).trans ((ops01_arg5 (W1 m ρ c)).trans (ops0_arg5 (W0 m ρ c)))

/-- The scale column as a term of the edge array. -/
theorem W3_v14 (c : Dev nD) : W3 m ρ c (Proc.devRef .tc main_v14)
    = shapeCast S100000x1
        (select (cmpf .ogt (degVec (row1 (A1 m c))) (broadcastInDim S100000 ![] Facts₀.bcast_S_S100000 (constant S_ .f32 0x00000000#32)))
          (Host.rsqrt (degVec (row1 (A1 m c))))
          (broadcastInDim S100000 ![] Facts₀.bcast_S_S100000 (constant (F := Ideal) S_ .f32 0x00000000#32)))
        Facts₀.shapeCasts_S100000_S100000x1 := by
  refine (ops02_v14 (W2 m ρ c)).trans ?_
  rw [show W2 m ρ c (Proc.devRef .tc main_v13) = _ from ops01_v13 (W1 m ρ c),
    show W1 m ρ c (Proc.devRef .tc main_v11) = _ from ops0_v11 (W0 m ρ c),
    show W1 m ρ c (Proc.devRef .tc main_v12) = _ from ops0_v12 (W0 m ρ c),
    show W1 m ρ c (Proc.devRef .tc main_cst_3) = _ from ops0_cst3 (W0 m ρ c)]

/-- The scale column at row `p`. -/
theorem W3_v14_apply (c : Dev nD) (p : Fin 100000) :
    (show S100000x1.Idx → EReal from W3 m ρ c (Proc.devRef .tc main_v14)) (ix2 p 0) = dinvT m c p := by
  rw [W3_v14]
  refine (dinvCol_apply (degVec (row1 (A1 m c))) (constant (F := Ideal) S_ .f32 0x00000000#32)
    (by rw [constant_apply]; exact Cert.Consts.ofBits_zero) p).trans ?_
  rw [degVec_apply]
  unfold dinvT dstWords
  congr 2
  funext e
  exact row1_apply _ e

/-! ## Region 0's exit -/

theorem W4_v14 (c : Dev nD) : W4 m ρ c (Proc.devRef .tc main_v14) = W3 m ρ c (Proc.devRef .tc main_v14) :=
  (W4_arr m ρ c 2).trans (((dat0 (V3 m ρ) c).arrAt_in 2 rfl _).trans (A_eq0 (V3 m ρ) c 2))
theorem W4_v1 (c : Dev nD) : W4 m ρ c (Proc.devRef .tc main_v1) = row0 (A1 m c) :=
  (W4_of_ne m ρ c main_v1 (by decide)).trans (W3_v1 m ρ c)
theorem W4_v3 (c : Dev nD) : W4 m ρ c (Proc.devRef .tc main_v3) = row1 (A1 m c) :=
  (W4_of_ne m ρ c main_v3 (by decide)).trans (W3_v3 m ρ c)
theorem W4_arg3 (c : Dev nD) : W4 m ρ c (Proc.devRef .tc main_arg3) = A3 m c :=
  (W4_of_ne m ρ c main_arg3 (by decide)).trans (W3_arg3 m ρ c)
theorem W4_arg4 (c : Dev nD) : W4 m ρ c (Proc.devRef .tc main_arg4) = A4 m c :=
  (W4_of_ne m ρ c main_arg4 (by decide)).trans (W3_arg4 m ρ c)
theorem W4_arg5 (c : Dev nD) : W4 m ρ c (Proc.devRef .tc main_arg5) = A5 m c :=
  (W4_of_ne m ρ c main_arg5 (by decide)).trans (W3_arg5 m ρ c)

/-- The first scaled table at `(p, q)`. -/
theorem W4_v15_apply (c : Dev nD) (p : Fin 100000) (q : Fin 16) :
    (show S100000x16.Idx → EReal from W4 m ρ c (Proc.devRef .tc main_v15)) (ix2 p q) = y1T m c p q := by
  refine (congrFun (W4_arr m ρ c 3) (ix2 p q)).trans ((Region0.final (V3 m ρ) c p q).trans ?_)
  show (show S100000x1.Idx → EReal from W3 m ρ c (Proc.devRef .tc main_v14)) (ix2 p 0)
      * ∑ k : Fin 256, (show S100000x256.Idx → EReal from W3 m ρ c (Proc.devRef .tc main_arg0)) (ix2 p k)
          * (show S256x16.Idx → EReal from W3 m ρ c (Proc.devRef .tc main_arg2)) (ix2 k q) = _
  rw [W3_v14_apply, W3_arg0, W3_arg2]
  rfl

/-! ## Region 1's entry and exit -/

theorem W5_v14 (c : Dev nD) : W5 m ρ c (Proc.devRef .tc main_v14) = W3 m ρ c (Proc.devRef .tc main_v14) :=
  (ops1_v14 (W4 m ρ c)).trans (W4_v14 m ρ c)
theorem W5_v15 (c : Dev nD) : W5 m ρ c (Proc.devRef .tc main_v15) = W4 m ρ c (Proc.devRef .tc main_v15) :=
  ops1_v15 (W4 m ρ c)
theorem W5_v1 (c : Dev nD) : W5 m ρ c (Proc.devRef .tc main_v1) = row0 (A1 m c) := (ops1_v1 (W4 m ρ c)).trans (W4_v1 m ρ c)
theorem W5_v3 (c : Dev nD) : W5 m ρ c (Proc.devRef .tc main_v3) = row1 (A1 m c) := (ops1_v3 (W4 m ρ c)).trans (W4_v3 m ρ c)
theorem W5_arg4 (c : Dev nD) : W5 m ρ c (Proc.devRef .tc main_arg4) = A4 m c := (ops1_arg4 (W4 m ρ c)).trans (W4_arg4 m ρ c)
theorem W5_arg5 (c : Dev nD) : W5 m ρ c (Proc.devRef .tc main_arg5) = A5 m c := (ops1_arg5 (W4 m ρ c)).trans (W4_arg5 m ρ c)

/-- The edges landing on `p`, read off the stored destination words. -/
theorem inEdges_row1 (c : Dev nD) (p : Fin 100000) :
    inEdges (fun e => row1 (A1 m c) (ix1 e)) p = inEdges (dstWords (A1 m c)) p := by
  unfold dstWords
  exact congrArg (fun d => inEdges d p) (funext fun e => row1_apply _ e)

/-- The source row of edge `e`, read off the stored source words. -/
theorem rowOf_row0 (c : Dev nD) (e : Fin 3200000) :
    rowOf 100000 (by norm_num) (row0 (A1 m c) (ix1 e)) = srowT m c e := by
  unfold srowT srcRows
  rw [row0_apply]

/-- The first edge sums at `(p, q)`. -/
theorem W5_v25_apply (c : Dev nD) (p : Fin 100000) (q : Fin 16) :
    (show S100000x16.Idx → EReal from W5 m ρ c (Proc.devRef .tc main_v25)) (ix2 p q) = s1T m c p q := by
  show (show S100000x16.Idx → EReal from after hostOps1 (W4 m ρ c) (Proc.devRef .tc main_v25)) (ix2 p q) = _
  rw [ops1_v25, W4_v1, W4_v3]
  show edgeSum16 (W4 m ρ c (Proc.devRef .tc main_v15)) (row0 (A1 m c)) (row1 (A1 m c)) (ix2 p q) = _
  rw [edgeSum16_apply, inEdges_row1]
  unfold s1T
  refine congrArg (fun s : EReal => 0 + s) (Finset.sum_congr rfl fun e _ => ?_)
  rw [rowOf_row0]
  exact W4_v15_apply m ρ c (srowT m c e) q

/-- The first bias row at column `q`. -/
theorem W5_v26_apply (c : Dev nD) (q : Fin 16) :
    (show S1x16.Idx → EReal from W5 m ρ c (Proc.devRef .tc main_v26)) (ix2 0 q) = A3 m c (ix1 q) := by
  show (show S1x16.Idx → EReal from after hostOps1 (W4 m ρ c) (Proc.devRef .tc main_v26)) (ix2 0 q) = _
  rw [ops1_v26, W4_arg3]
  exact biasRow16_apply _ q

/-- The hidden table at `(p, q)`. -/
theorem W6_v27_apply (c : Dev nD) (p : Fin 100000) (q : Fin 16) :
    (show S100000x16.Idx → EReal from W6 m ρ c (Proc.devRef .tc main_v27)) (ix2 p q) = hT m c p q := by
  refine (congrFun (W6_arr m ρ c 4) (ix2 p q)).trans ((Region1.final (V5 m ρ) c p q).trans ?_)
  show max ((show S100000x1.Idx → EReal from W5 m ρ c (Proc.devRef .tc main_v14)) (ix2 p 0)
      * ((show S100000x16.Idx → EReal from W5 m ρ c (Proc.devRef .tc main_v25)) (ix2 p q)
          + (show S100000x16.Idx → EReal from W5 m ρ c (Proc.devRef .tc main_v15)) (ix2 p q))
      + (show S1x16.Idx → EReal from W5 m ρ c (Proc.devRef .tc main_v26)) (ix2 0 q)) 0 = _
  rw [W5_v25_apply, W5_v26_apply, W5_v14, W5_v15, W3_v14_apply, W4_v15_apply]
  rfl

theorem W6_v14 (c : Dev nD) : W6 m ρ c (Proc.devRef .tc main_v14) = W3 m ρ c (Proc.devRef .tc main_v14) :=
  ((W6_arr m ρ c 2).trans (((dat1 (V5 m ρ) c).arrAt_in 2 rfl _).trans (A_eq1 (V5 m ρ) c 2))).trans (W5_v14 m ρ c)
theorem W6_v1 (c : Dev nD) : W6 m ρ c (Proc.devRef .tc main_v1) = row0 (A1 m c) :=
  (W6_of_ne m ρ c main_v1 (by decide)).trans (W5_v1 m ρ c)
theorem W6_v3 (c : Dev nD) : W6 m ρ c (Proc.devRef .tc main_v3) = row1 (A1 m c) :=
  (W6_of_ne m ρ c main_v3 (by decide)).trans (W5_v3 m ρ c)
theorem W6_arg4 (c : Dev nD) : W6 m ρ c (Proc.devRef .tc main_arg4) = A4 m c :=
  (W6_of_ne m ρ c main_arg4 (by decide)).trans (W5_arg4 m ρ c)
theorem W6_arg5 (c : Dev nD) : W6 m ρ c (Proc.devRef .tc main_arg5) = A5 m c :=
  (W6_of_ne m ρ c main_arg5 (by decide)).trans (W5_arg5 m ρ c)

/-! ## Region 2's exit -/

/-- The second scaled table at `(p, q)`. -/
theorem W7_v28_apply (c : Dev nD) (p : Fin 100000) (q : Fin 40) :
    (show S100000x40.Idx → EReal from W7 m ρ c (Proc.devRef .tc main_v28)) (ix2 p q) = y2T m c p q := by
  refine (congrFun (W7_arr m ρ c 3) (ix2 p q)).trans ((Region2.final (V6 m ρ) c p q).trans ?_)
  show (show S100000x1.Idx → EReal from W6 m ρ c (Proc.devRef .tc main_v14)) (ix2 p 0)
      * ∑ k : Fin 16, (show S100000x16.Idx → EReal from W6 m ρ c (Proc.devRef .tc main_v27)) (ix2 p k)
          * (show S16x40.Idx → EReal from W6 m ρ c (Proc.devRef .tc main_arg4)) (ix2 k q) = _
  rw [W6_v14, W3_v14_apply, W6_arg4]
  unfold y2T z2T
  refine congrArg (fun s : EReal => dinvT m c p * s) (Finset.sum_congr rfl fun k _ => ?_)
  rw [W6_v27_apply]

theorem W7_v14 (c : Dev nD) : W7 m ρ c (Proc.devRef .tc main_v14) = W3 m ρ c (Proc.devRef .tc main_v14) :=
  ((W7_arr m ρ c 2).trans (((dat2 (V6 m ρ) c).arrAt_in 2 rfl _).trans (A_eq2 (V6 m ρ) c 2))).trans (W6_v14 m ρ c)
theorem W7_v1 (c : Dev nD) : W7 m ρ c (Proc.devRef .tc main_v1) = row0 (A1 m c) :=
  (W7_of_ne m ρ c main_v1 (by decide)).trans (W6_v1 m ρ c)
theorem W7_v3 (c : Dev nD) : W7 m ρ c (Proc.devRef .tc main_v3) = row1 (A1 m c) :=
  (W7_of_ne m ρ c main_v3 (by decide)).trans (W6_v3 m ρ c)
theorem W7_arg5 (c : Dev nD) : W7 m ρ c (Proc.devRef .tc main_arg5) = A5 m c :=
  (W7_of_ne m ρ c main_arg5 (by decide)).trans (W6_arg5 m ρ c)

/-! ## Region 3's entry and exit -/

/-- The second edge sums at `(p, q)`. -/
theorem W8_v38_apply (c : Dev nD) (p : Fin 100000) (q : Fin 40) :
    (show S100000x40.Idx → EReal from W8 m ρ c (Proc.devRef .tc main_v38)) (ix2 p q) = s2T m c p q := by
  show (show S100000x40.Idx → EReal from after hostOps3 (W7 m ρ c) (Proc.devRef .tc main_v38)) (ix2 p q) = _
  rw [ops3_v38, W7_v1, W7_v3]
  show edgeSum40 (W7 m ρ c (Proc.devRef .tc main_v28)) (row0 (A1 m c)) (row1 (A1 m c)) (ix2 p q) = _
  rw [edgeSum40_apply, inEdges_row1]
  unfold s2T
  refine congrArg (fun s : EReal => 0 + s) (Finset.sum_congr rfl fun e _ => ?_)
  rw [rowOf_row0]
  exact W7_v28_apply m ρ c (srowT m c e) q

/-- The second bias row at column `q`. -/
theorem W8_v39_apply (c : Dev nD) (q : Fin 40) :
    (show S1x40.Idx → EReal from W8 m ρ c (Proc.devRef .tc main_v39)) (ix2 0 q) = A5 m c (ix1 q) := by
  show (show S1x40.Idx → EReal from after hostOps3 (W7 m ρ c) (Proc.devRef .tc main_v39)) (ix2 0 q) = _
  rw [ops3_v39, W7_arg5]
  exact biasRow40_apply _ q

theorem W8_v14 (c : Dev nD) : W8 m ρ c (Proc.devRef .tc main_v14) = W3 m ρ c (Proc.devRef .tc main_v14) :=
  (ops3_v14 (W7 m ρ c)).trans (W7_v14 m ρ c)
theorem W8_v28 (c : Dev nD) : W8 m ρ c (Proc.devRef .tc main_v28) = W7 m ρ c (Proc.devRef .tc main_v28) :=
  ops3_v28 (W7 m ρ c)

/-- THE RESULT ARRAY at `(p, q)`: the network in its first arrangement. -/
theorem result_apply (c : Dev nD) (p : Fin 100000) (q : Fin 40) :
    (show S100000x40.Idx → EReal from W9 m ρ c (Proc.devRef .tc main_v40)) (ix2 p q)
      = outK (tab2 (A0 m c)) (dstWords (A1 m c)) (srcRows 100000 (by norm_num) (A1 m c)) (tab2 (A2 m c)) (vec1 (A3 m c))
          (tab2 (A4 m c)) (vec1 (A5 m c)) p q := by
  refine ((congrFun (W9_arr m ρ c 4) (ix2 p q)).trans ((Region3.final (V8 m ρ) c p q).trans ?_)).trans (outT_eq m c p q)
  show (show S100000x1.Idx → EReal from W8 m ρ c (Proc.devRef .tc main_v14)) (ix2 p 0)
      * ((show S100000x40.Idx → EReal from W8 m ρ c (Proc.devRef .tc main_v38)) (ix2 p q)
          + (show S100000x40.Idx → EReal from W8 m ρ c (Proc.devRef .tc main_v28)) (ix2 p q))
      + (show S1x40.Idx → EReal from W8 m ρ c (Proc.devRef .tc main_v39)) (ix2 0 q) = _
  rw [W8_v38_apply, W8_v39_apply, W8_v14, W8_v28, W3_v14_apply, W7_v28_apply]
  rfl

end Cert.KernelIdeal.KValue

end
-- ==== Proof.IndexWords.lean ====
/-
  Index words against table rows.

  A word that, read as a signed integer, is already a row number `p` of a table of `N < 2^31` rows is not negative, so
  normalising leaves it alone and clamping keeps it: it names row `p`. In particular the word `j` of an iota names row `j`.
-/
import proofs.«428375_j76158360092902_4_alg».proof.Proof.Spec

noncomputable section

namespace Cert.GCN

open Idealize.ShloMosaic

/-- A word whose signed reading is the row number `p` names row `p`. -/
theorem rowOf_of_toInt {N : ℕ} (hN : 0 < N) (hN' : N < 2 ^ 31) (w : BitVec 32) (p : Fin N) (h : w.toInt = (p.val : ℤ)) :
    rowOf N hN w = p := by
  have hslt : w.slt 0#32 = false := by
    rw [BitVec.slt_eq_decide, BitVec.toInt_zero, h]
    exact decide_eq_false (by omega)
  have hnorm : normWord N w = w := by
    unfold normWord IntOp.cmpi Scalar.select
    simp only [hslt]
    exact if_neg (by decide)
  apply Fin.ext
  show min (normWord N w).toInt.toNat (N - 1) = p.val
  rw [hnorm, h]
  have := p.isLt
  omega

/-- The signed reading of the iota's word at a position below `2^31` is the position. -/
theorem toInt_ofNat_of_lt (j : ℕ) (hj : j < 2 ^ 31) : (BitVec.ofNat 32 j).toInt = (j : ℤ) := by
  rw [BitVec.toInt_eq_toNat_cond, BitVec.toNat_ofNat]
  have hmod : j % 2 ^ 32 = j := Nat.mod_eq_of_lt (by omega)
  rw [hmod]
  split <;> omega

/-- The iota's word at position `j` names row `j`. -/
theorem rowOf_ofNat {N : ℕ} (hN : 0 < N) (hN' : N < 2 ^ 31) (j : Fin N) : rowOf N hN (BitVec.ofNat 32 j.val) = j :=
  rowOf_of_toInt hN hN' _ j (toInt_ofNat_of_lt j.val (by omega))

end Cert.GCN

end
-- ==== Proof.RefL1.lean ====
/-
  The reference's first layer, read entry by entry.

  The reference lists the `E` edges followed by one self loop per node, so each scatter-add over the `E + N` positions
  splits into the edges' sum and the single self loop that lands on `p`. The degree is the count of those positions;
  the layer's entry `(p, q)` is the weighted rows' sum plus the bias, clipped at zero.
-/
import proofs.«428375_j76158360092902_4_alg».proof.Proof.RefRead
import proofs.«428375_j76158360092902_4_alg».proof.Proof.Spec
import proofs.«428375_j76158360092902_4_alg».proof.Proof.IndexWords
import proofs.«428375_j76158360092902_4_alg».proof.Proof.LibRowOps
import proofs.«428375_j76158360092902_4_alg».proof.Proof.LibPlainProduct
import proofs.«428375_j76158360092902_4_alg».proof.Proof.Consts
import Idealize.ShloMosaic.Lib.ValueIdx
import Idealize.ShloMosaic.Lib.Pipeline.Value
import Idealize.ShloMosaic.Lib.StableHlo.Predicate
import Idealize.ShloMosaic.PureOps.Ideal.Laws

set_option maxRecDepth 16384

noncomputable section

open scoped BigOperators

namespace Cert.ReferenceIdeal.RefL1

open Idealize.ShloMosaic Idealize.ShloMosaic.TcCoe Idealize.SL.Sem Idealize.ShloMosaic.ValueIdx
open Cert.ReferenceIdeal Cert.ReferenceIdeal.Gen Cert.ReferenceIdeal.ReadP Cert.GCN
open Idealize.ShloMosaic.StableHlo.Predicate (ixP)

/-! ## The two index lists: the edges' words, then the iota -/

/-- The destination list at an edge position is that edge's destination word. -/
theorem dstList_edge (x1 : IVec S2x3200000 32) (e : Fin 3200000) (h : e.val < 3300000) :
    val_main_v7 (F := Ideal) x1 (ix1 ⟨e.val, h⟩) = dstWords x1 e := by
  unfold val_main_v7
  rw [concatenate_pair_apply_left (t := S3300000) (s₁ := S3200000) (s₂ := S100000) (0 : Fin 1) _ _ concatenates_S3200000_S100000_S3300000_d0 (ix1 ⟨e.val, h⟩) rfl (ix1 e)
    (fun b => by match b with | ⟨0, _⟩ => rfl)]
  rw [val_main_v6_apply, val_main_v5_apply]
  unfold dstWords
  congr 1
  funext a
  apply Fin.ext
  match a with
  | ⟨0, _⟩ => rfl
  | ⟨1, _⟩ => exact Nat.mod_eq_of_lt e.isLt

/-- The destination list at a self-loop position is the iota's word. -/
theorem dstList_loop (x1 : IVec S2x3200000 32) (i : Fin 100000) (h : 3200000 + i.val < 3300000) :
    val_main_v7 (F := Ideal) x1 (ix1 ⟨3200000 + i.val, h⟩) = BitVec.ofNat 32 i.val := by
  unfold val_main_v7
  rw [concatenate_pair_apply_right (t := S3300000) (s₁ := S3200000) (s₂ := S100000) (0 : Fin 1) _ _ concatenates_S3200000_S100000_S3300000_d0 (ix1 ⟨3200000 + i.val, h⟩) rfl rfl (ix1 i)
    (fun b hb => by match b with | ⟨0, _⟩ => exact absurd rfl hb)
    (by show i.val + 3200000 = 3200000 + i.val; omega)]
  rfl

/-- The source list at an edge position is that edge's source word. -/
theorem srcList_edge (x1 : IVec S2x3200000 32) (e : Fin 3200000) (h : e.val < 3300000) :
    val_main_v4 (F := Ideal) x1 (ix1 ⟨e.val, h⟩) = x1 (ix2 0 e) := by
  unfold val_main_v4
  rw [concatenate_pair_apply_left (t := S3300000) (s₁ := S3200000) (s₂ := S100000) (0 : Fin 1) _ _ concatenates_S3200000_S100000_S3300000_d0 (ix1 ⟨e.val, h⟩) rfl (ix1 e)
    (fun b => by match b with | ⟨0, _⟩ => rfl)]
  rw [val_main_v3_apply, val_main_v2_apply]
  congr 1
  funext a
  apply Fin.ext
  match a with
  | ⟨0, _⟩ => rfl
  | ⟨1, _⟩ => exact Nat.mod_eq_of_lt e.isLt

/-- The source list at a self-loop position is the iota's word. -/
theorem srcList_loop (x1 : IVec S2x3200000 32) (i : Fin 100000) (h : 3200000 + i.val < 3300000) :
    val_main_v4 (F := Ideal) x1 (ix1 ⟨3200000 + i.val, h⟩) = BitVec.ofNat 32 i.val := by
  unfold val_main_v4
  rw [concatenate_pair_apply_right (t := S3300000) (s₁ := S3200000) (s₂ := S100000) (0 : Fin 1) _ _ concatenates_S3200000_S100000_S3300000_d0 (ix1 ⟨3200000 + i.val, h⟩) rfl rfl (ix1 i)
    (fun b hb => by match b with | ⟨0, _⟩ => exact absurd rfl hb)
    (by show i.val + 3200000 = 3200000 + i.val; omega)]
  rfl

/-! ## A filtered sum over the positions: the edges landing on `p`, and the one self loop -/

/-- Over a list of words that is the edges' destination words followed by the iota, the sum over the positions whose
    word reads `p` is the sum over the edges landing on `p` plus the term of the self loop of `p`. -/
theorem sum_positions {M : Type*} [AddCommMonoid M] (idx : Fin 3300000 → BitVec 32) (dst : Fin 3200000 → BitVec 32)
    (hE : ∀ (e : Fin 3200000) (h : e.val < 3300000), idx ⟨e.val, h⟩ = dst e)
    (hL : ∀ (i : Fin 100000) (h : 3200000 + i.val < 3300000), idx ⟨3200000 + i.val, h⟩ = BitVec.ofNat 32 i.val)
    (p : Fin 100000) (f : Fin 3300000 → M) :
    ∑ j ∈ Finset.univ.filter (fun j : Fin 3300000 => (idx j).toInt = (p.val : ℤ)), f j
      = ∑ e ∈ inEdges dst p, f ⟨e.val, by omega⟩ + f ⟨3200000 + p.val, by omega⟩ := by
  rw [Cert.Lib.RowOps.sum_filter_split (A := 3200000) (B := 100000) (n := 3300000) (by norm_num)]
  refine congrArg₂ (· + ·) ?_ ?_
  · unfold inEdges
    refine Finset.sum_congr ?_ (fun _ _ => rfl)
    refine Finset.filter_congr (fun e _ => ?_)
    rw [hE]
  · have hset : (Finset.univ : Finset (Fin 100000)).filter (fun i => (idx ⟨3200000 + i.val, by omega⟩).toInt = (p.val : ℤ)) = {p} := by
      ext i
      rw [Finset.mem_filter, Finset.mem_singleton, hL, toInt_ofNat_of_lt i.val (by omega)]
      constructor
      · rintro ⟨_, h⟩
        exact Fin.ext (by exact_mod_cast h)
      · rintro rfl
        exact ⟨Finset.mem_univ _, rfl⟩
    rw [hset, Finset.sum_singleton]

/-! ## The degree and its guarded inverse square root -/

/-- The scatter's index column at position `j` is the destination list's word there. -/
theorem v10_at (x1 : IVec S2x3200000 32) (j : Fin 3300000) :
    val_main_v10 (F := Ideal) x1 (ixP j) = val_main_v7 (F := Ideal) x1 (ix1 j) := by
  have hj : idx_main_v10 (ixP j) = ix1 j := funext fun a => by match a with | ⟨0, _⟩ => rfl
  rw [val_main_v10_apply, hj]

/-- The degree: nothing to start with, then one for every position whose word reads `p`. -/
theorem deg_value (x1 : IVec S2x3200000 32) (p : Fin 100000) :
    val_main_v11 (F := Ideal) x1 (ix1 p) = degR (dstWords x1) p := by
  unfold val_main_v11
  rw [Cert.Lib.RowOps.scatterAdd_vec_apply scatter_S100000_S3300000x1_S3300000_n_0_0_1 rfl rfl rfl rfl]
  rw [val_main_v9_apply, val_main_cst_0_apply]
  rw [sum_positions (fun j => val_main_v10 (F := Ideal) x1 (ixP j)) (dstWords x1)
    (fun e h => by rw [v10_at, dstList_edge]) (fun i h => by rw [v10_at, dstList_loop]) p
    (fun j => val_main_v8 (F := Ideal) (ix1 j))]
  simp only [val_main_v8_apply, val_main_cst_apply]
  unfold degR
  rw [show (FloatOps.ofBits (F := Ideal) .f32 0x00000000#32) = (0 : EReal) from Cert.Consts.ofBits_zero,
    show (FloatOps.ofBits (F := Ideal) .f32 0x3F800000#32) = (1 : EReal) from Cert.Consts.ofBits_one]

/-- The guarded inverse square root of the degree, as the reference's first layer computes it. -/
theorem dinv_value (x1 : IVec S2x3200000 32) (p : Fin 100000) :
    val_main_v15 (F := Ideal) x1 (ix1 p) = dinvOf (degR (dstWords x1) p) := by
  rw [val_main_v15_apply, val_main_v13_apply, val_main_v14_apply, val_main_v12_apply, val_main_cst_1_apply,
    val_main_call0_v1_apply, val_main_call0_v0_apply, val_main_cst_2_apply, deg_value]
  unfold dinvOf
  rw [show (FloatOps.ofBits (F := Ideal) .f32 0x00000000#32) = (0 : EReal) from Cert.Consts.ofBits_zero,
    Ideal.hostUnary_rsqrt_def]

/-! ## The gathers: which row each position reads -/

/-- The `dinv[src]` gather's index at position `j`: the source list's word there, normalised. -/
theorem v21_at (x1 : IVec S2x3200000 32) (j : Fin 3300000) :
    val_main_v21 (F := Ideal) x1 (ixP j) = normWord 100000 (val_main_v4 (F := Ideal) x1 (ix1 j)) := by
  have hj : idx_main_v21 (ixP j) = ix1 j := funext fun a => by match a with | ⟨0, _⟩ => rfl
  rw [val_main_v21_apply, hj, val_main_v20_apply, val_main_v17_apply, val_main_v19_apply, val_main_v16_apply,
    val_main_v18_apply, val_main_c_apply, val_main_c_3_apply]
  rfl

/-- The `dinv[dst]` gather's index at position `j`: the destination list's word there, normalised. -/
theorem v28_at (x1 : IVec S2x3200000 32) (j : Fin 3300000) :
    val_main_v28 (F := Ideal) x1 (ixP j) = normWord 100000 (val_main_v7 (F := Ideal) x1 (ix1 j)) := by
  have hj : idx_main_v28 (ixP j) = ix1 j := funext fun a => by match a with | ⟨0, _⟩ => rfl
  rw [val_main_v28_apply, hj, val_main_v27_apply, val_main_v24_apply, val_main_v26_apply, val_main_v23_apply,
    val_main_v25_apply, val_main_c_4_apply, val_main_c_5_apply]
  rfl

/-- The row gather's index at position `j`: the source list's word there, normalised. -/
theorem v36_at (x1 : IVec S2x3200000 32) (j : Fin 3300000) :
    val_main_v36 (F := Ideal) x1 (ixP j) = normWord 100000 (val_main_v4 (F := Ideal) x1 (ix1 j)) := by
  have hj : idx_main_v36 (ixP j) = ix1 j := funext fun a => by match a with | ⟨0, _⟩ => rfl
  rw [val_main_v36_apply, hj, val_main_v35_apply, val_main_v32_apply, val_main_v34_apply, val_main_v31_apply,
    val_main_v33_apply, val_main_c_6_apply, val_main_c_7_apply]
  rfl

/-- A rank-1 index built from its one coordinate, written two ways. -/
theorem ofFin_eq_ix1 {n : ℕ} (j : Fin n) : (Shape.Idx.ofFin j : (⟨1, ![n]⟩ : Shape).Idx) = ix1 j :=
  funext fun a => by
    have ha : a = 0 := Subsingleton.elim _ _
    subst ha
    rfl

/-- A gather's clamped read of a normalised word is the row that word names. -/
theorem row_mk (v w : BitVec 32) (hv : v = normWord 100000 w) (h : min v.toInt.toNat (100000 - 1) < 100000) :
    (⟨min v.toInt.toNat (100000 - 1), h⟩ : Fin 100000) = rowOf 100000 (by norm_num) w := by
  subst hv
  unfold rowOf
  rfl

/-- `dinv[src]` at position `j`: the inverse square root at the row the source list's word names. -/
theorem v22_at (x1 : IVec S2x3200000 32) (j : Fin 3300000) :
    val_main_v22 (F := Ideal) x1 (ix1 j)
      = dinvOf (degR (dstWords x1) (rowOf 100000 (by norm_num) (val_main_v4 (F := Ideal) x1 (ix1 j)))) := by
  unfold val_main_v22
  have h := StableHlo.Predicate.gather_take gather_S100000_S3300000x1_S3300000_n_0_n_n_0_1_1 rfl rfl rfl rfl
    (val_main_v15 (F := Ideal) x1) (val_main_v21 (F := Ideal) x1) j (by norm_num)
  rw [ofFin_eq_ix1, ofFin_eq_ix1] at h
  rw [h, dinv_value, row_mk _ _ (v21_at x1 j)]

/-- `dinv[dst]` at position `j`: the inverse square root at the row the destination list's word names. -/
theorem v29_at (x1 : IVec S2x3200000 32) (j : Fin 3300000) :
    val_main_v29 (F := Ideal) x1 (ix1 j)
      = dinvOf (degR (dstWords x1) (rowOf 100000 (by norm_num) (val_main_v7 (F := Ideal) x1 (ix1 j)))) := by
  unfold val_main_v29
  have h := StableHlo.Predicate.gather_take gather_S100000_S3300000x1_S3300000_n_0_n_n_0_1_1 rfl rfl rfl rfl
    (val_main_v15 (F := Ideal) x1) (val_main_v28 (F := Ideal) x1) j (by norm_num)
  rw [ofFin_eq_ix1, ofFin_eq_ix1] at h
  rw [h, dinv_value, row_mk _ _ (v28_at x1 j)]

/-! ## The weighted rows and their scatter-add -/

/-- The plain product `x · W` at an entry. -/
theorem v0_at (x0 : FVec Ideal S100000x256 .f32) (x2 : FVec Ideal S256x16 .f32) (p : Fin 100000) (q : Fin 16) :
    val_main_v0 (F := Ideal) x0 x2 (ix2 p q) = ∑ k : Fin 256, x0 (ix2 p k) * x2 (ix2 k q) := by
  rw [val_main_v0_apply]
  refine Finset.sum_congr rfl fun k _ => ?_
  have hl : lidx_main_v0 (ix2 p q) k = ix2 p k :=
    funext fun a => Fin.ext (by match a with | ⟨0, _⟩ => rfl | ⟨1, _⟩ => rfl)
  have hr : ridx_main_v0 (ix2 p q) k = ix2 k q :=
    funext fun a => Fin.ext (by match a with | ⟨0, _⟩ => rfl | ⟨1, _⟩ => rfl)
  rw [hl, hr]

/-- The gathered row at position `j`: the product's row that the source list's word names. -/
theorem v37_at (x0 : FVec Ideal S100000x256 .f32) (x1 : IVec S2x3200000 32) (x2 : FVec Ideal S256x16 .f32)
    (j : Fin 3300000) (q : Fin 16) :
    val_main_v37 (F := Ideal) x0 x1 x2 (ix2 j q)
      = val_main_v0 (F := Ideal) x0 x2 (ix2 (rowOf 100000 (by norm_num) (val_main_v4 (F := Ideal) x1 (ix1 j))) q) := by
  unfold val_main_v37
  rw [Cert.Lib.RowOps.gather_rows_apply gather_S100000x16_S3300000x1_S3300000x16_1_0_n_n_0_1_116 rfl rfl rfl rfl rfl rfl rfl
    _ _ j q (by norm_num), row_mk _ _ (v36_at x1 j)]

/-- The edge weight laid along the row at position `j`: `dinv[src] · dinv[dst]`. -/
theorem v39_at (x1 : IVec S2x3200000 32) (j : Fin 3300000) (q : Fin 16) :
    val_main_v39 (F := Ideal) x1 (ix2 j q)
      = dinvOf (degR (dstWords x1) (rowOf 100000 (by norm_num) (val_main_v4 (F := Ideal) x1 (ix1 j))))
        * dinvOf (degR (dstWords x1) (rowOf 100000 (by norm_num) (val_main_v7 (F := Ideal) x1 (ix1 j)))) := by
  have h1 : idx_main_v38 (idx_main_v39 (ix2 j q)) = ix1 j := funext fun a => by match a with | ⟨0, _⟩ => rfl
  rw [val_main_v39_apply, val_main_v38_apply, h1, val_main_v30_apply, v22_at, v29_at]
  rfl

/-- The scatter's index column at position `j` is the destination list's word there. -/
theorem v42_at (x1 : IVec S2x3200000 32) (j : Fin 3300000) :
    val_main_v42 (F := Ideal) x1 (ixP j) = val_main_v7 (F := Ideal) x1 (ix1 j) := by
  have hj : idx_main_v42 (ixP j) = ix1 j := funext fun a => by match a with | ⟨0, _⟩ => rfl
  rw [val_main_v42_apply, hj]

/-- The bias laid along the rows, at an entry. -/
theorem v45_at (x3 : FVec Ideal S16 .f32) (p : Fin 100000) (q : Fin 16) :
    val_main_v45 (F := Ideal) x3 (ix2 p q) = vec1 x3 q := by
  have hq : idx_main_v44 (idx_main_v45 (ix2 p q)) = ix1 q := funext fun a => by match a with | ⟨0, _⟩ => rfl
  rw [val_main_v45_apply, val_main_v44_apply, hq]
  rfl

/-- The first layer's output after the clip at zero, entry `(p, q)`. -/
theorem layer_value (x0 : FVec Ideal S100000x256 .f32) (x1 : IVec S2x3200000 32) (x2 : FVec Ideal S256x16 .f32)
    (x3 : FVec Ideal S16 .f32) (p : Fin 100000) (q : Fin 16) :
    val_main_v47 (F := Ideal) x0 x1 x2 x3 (ix2 p q)
      = max (layerR (fun p => dinvOf (degR (dstWords x1) p)) (dstWords x1) (srcRows 100000 (by norm_num) x1)
          (dstRows 100000 (by norm_num) x1) (fun p q => ∑ k : Fin 256, x0 (ix2 p k) * x2 (ix2 k q)) (vec1 x3) p q) 0 := by
  rw [val_main_v47_apply, val_main_call1_v0_apply, val_main_call1_cst_apply, val_main_v46_apply, v45_at]
  unfold val_main_v43
  rw [Cert.Lib.RowOps.scatterAdd_rows_apply scatter_S100000x16_S3300000x1_S3300000x16_1_0_0_1 rfl rfl rfl rfl]
  rw [val_main_v41_apply, val_main_cst_8_apply]
  rw [sum_positions (fun j => val_main_v42 (F := Ideal) x1 (ixP j)) (dstWords x1)
    (fun e h => by rw [v42_at, dstList_edge]) (fun i h => by rw [v42_at, dstList_loop]) p
    (fun j => val_main_v40 (F := Ideal) x0 x1 x2 (ix2 j q))]
  simp only [val_main_v40_apply, v37_at, v39_at, v0_at, srcList_edge, dstList_edge, srcList_loop, dstList_loop,
    rowOf_ofNat (N := 100000) (by norm_num) (by norm_num) p]
  rw [show (FloatOps.ofBits (F := Ideal) .f32 0x00000000#32) = (0 : EReal) from Cert.Consts.ofBits_zero]
  rfl

end Cert.ReferenceIdeal.RefL1

end
-- ==== Proof.RefL2.lean ====
/-
  The reference's second layer, read entry by entry, over the first layer's output `h`.

  As in the first layer each scatter-add over the `E + N` positions splits into the edges' sum and the single self loop
  that lands on `p`; the layer's entry `(p, q)` is the weighted rows' sum of `h · W2` plus the bias.
-/
import proofs.«428375_j76158360092902_4_alg».proof.Proof.RefRead
import proofs.«428375_j76158360092902_4_alg».proof.Proof.Spec
import proofs.«428375_j76158360092902_4_alg».proof.Proof.IndexWords
import proofs.«428375_j76158360092902_4_alg».proof.Proof.LibRowOps
import proofs.«428375_j76158360092902_4_alg».proof.Proof.LibPlainProduct
import proofs.«428375_j76158360092902_4_alg».proof.Proof.Consts
import Idealize.ShloMosaic.Lib.ValueIdx
import Idealize.ShloMosaic.Lib.Pipeline.Value
import Idealize.ShloMosaic.Lib.StableHlo.Predicate
import Idealize.ShloMosaic.PureOps.Ideal.Laws

set_option maxRecDepth 16384

noncomputable section

open scoped BigOperators

namespace Cert.ReferenceIdeal.RefL2

open Idealize.ShloMosaic Idealize.ShloMosaic.TcCoe Idealize.SL.Sem Idealize.ShloMosaic.ValueIdx
open Cert.ReferenceIdeal Cert.ReferenceIdeal.Gen Cert.ReferenceIdeal.ReadP Cert.GCN
open Idealize.ShloMosaic.StableHlo.Predicate (ixP)

/-! ## The two index lists, position by position -/

/-- The source list at an edge position is that edge's source word. -/
private theorem srcList_edge (x1 : IVec S2x3200000 32) (e : Fin 3200000) :
    val_main_v52 (F := Ideal) x1 (ix1 ⟨e.val, by omega⟩) = x1 (ix2 0 e) := by
  unfold val_main_v52
  rw [concatenate_pair_apply_left (t := S3300000) (s₁ := S3200000) (s₂ := S100000) (0 : Fin S3300000.rank) _ _ _ _ rfl (ix1 e)
    (fun b => by match b with | ⟨0, _⟩ => rfl)]
  rw [val_main_v51_apply, val_main_v50_apply]
  congr 1
  funext a
  apply Fin.ext
  match a with
  | ⟨0, _⟩ => rfl
  | ⟨1, _⟩ => exact Nat.mod_eq_of_lt e.isLt

/-- The source list at a self-loop position is the node's own number as a word. -/
private theorem srcList_self (x1 : IVec S2x3200000 32) (i : Fin 100000) :
    val_main_v52 (F := Ideal) x1 (ix1 ⟨3200000 + i.val, by omega⟩) = BitVec.ofNat 32 i.val := by
  unfold val_main_v52
  rw [concatenate_pair_apply_right (t := S3300000) (s₁ := S3200000) (s₂ := S100000) (0 : Fin S3300000.rank) _ _ _ _ rfl rfl (ix1 i)
    (fun b hb => by match b with | ⟨0, _⟩ => exact absurd rfl hb)
    (by show i.val + 3200000 = 3200000 + i.val; omega)]
  rfl

/-- The destination list at an edge position is that edge's destination word. -/
private theorem dstList_edge (x1 : IVec S2x3200000 32) (e : Fin 3200000) :
    val_main_v55 (F := Ideal) x1 (ix1 ⟨e.val, by omega⟩) = dstWords x1 e := by
  unfold val_main_v55
  rw [concatenate_pair_apply_left (t := S3300000) (s₁ := S3200000) (s₂ := S100000) (0 : Fin S3300000.rank) _ _ _ _ rfl (ix1 e)
    (fun b => by match b with | ⟨0, _⟩ => rfl)]
  rw [val_main_v54_apply, val_main_v53_apply]
  unfold dstWords
  congr 1
  funext a
  apply Fin.ext
  match a with
  | ⟨0, _⟩ => rfl
  | ⟨1, _⟩ => exact Nat.mod_eq_of_lt e.isLt

/-- The destination list at a self-loop position is the node's own number as a word. -/
private theorem dstList_self (x1 : IVec S2x3200000 32) (i : Fin 100000) :
    val_main_v55 (F := Ideal) x1 (ix1 ⟨3200000 + i.val, by omega⟩) = BitVec.ofNat 32 i.val := by
  unfold val_main_v55
  rw [concatenate_pair_apply_right (t := S3300000) (s₁ := S3200000) (s₂ := S100000) (0 : Fin S3300000.rank) _ _ _ _ rfl rfl (ix1 i)
    (fun b hb => by match b with | ⟨0, _⟩ => exact absurd rfl hb)
    (by show i.val + 3200000 = 3200000 + i.val; omega)]
  rfl

/-! ## Columns, normalised words, gathered rows -/

/-- The rank-1 index at a coordinate, under its two spellings. -/
private theorem ofFin_eq_ix1 {n : ℕ} (k : Fin n) : (Shape.Idx.ofFin k : (⟨1, ![n]⟩ : Shape).Idx) = ix1 k :=
  funext fun a => match a with | ⟨0, _⟩ => rfl

/-- The scatter-adds' index column (the destination list as a column) at row `j`. -/
private theorem v58_at (x1 : IVec S2x3200000 32) (j : Fin 3300000) :
    val_main_v58 (F := Ideal) x1 (ixP j) = val_main_v55 (F := Ideal) x1 (ix1 j) := by
  rw [val_main_v58_apply]; congr 1; funext a; match a with | ⟨0, _⟩ => rfl

private theorem v90_at (x1 : IVec S2x3200000 32) (j : Fin 3300000) :
    val_main_v90 (F := Ideal) x1 (ixP j) = val_main_v55 (F := Ideal) x1 (ix1 j) := by
  rw [val_main_v90_apply]; congr 1; funext a; match a with | ⟨0, _⟩ => rfl

/-- The source list normalised, as the weight's first gather indexes with it. -/
private theorem v69_at (x1 : IVec S2x3200000 32) (j : Fin 3300000) :
    val_main_v69 (F := Ideal) x1 (ixP j) = normWord 100000 (val_main_v52 (F := Ideal) x1 (ix1 j)) := by
  rw [val_main_v69_apply, val_main_v68_apply, val_main_v65_apply, val_main_v67_apply, val_main_v64_apply,
    val_main_v66_apply]
  have e : idx_main_v69 (ixP j) = ix1 j := funext fun a => match a with | ⟨0, _⟩ => rfl
  rw [e]; rfl

/-- The destination list normalised, as the weight's second gather indexes with it. -/
private theorem v76_at (x1 : IVec S2x3200000 32) (j : Fin 3300000) :
    val_main_v76 (F := Ideal) x1 (ixP j) = normWord 100000 (val_main_v55 (F := Ideal) x1 (ix1 j)) := by
  rw [val_main_v76_apply, val_main_v75_apply, val_main_v72_apply, val_main_v74_apply, val_main_v71_apply,
    val_main_v73_apply]
  have e : idx_main_v76 (ixP j) = ix1 j := funext fun a => match a with | ⟨0, _⟩ => rfl
  rw [e]; rfl

/-- The source list normalised, as the rows' gather indexes with it. -/
private theorem v84_at (x1 : IVec S2x3200000 32) (j : Fin 3300000) :
    val_main_v84 (F := Ideal) x1 (ixP j) = normWord 100000 (val_main_v52 (F := Ideal) x1 (ix1 j)) := by
  rw [val_main_v84_apply, val_main_v83_apply, val_main_v80_apply, val_main_v82_apply, val_main_v79_apply,
    val_main_v81_apply]
  have e : idx_main_v84 (ixP j) = ix1 j := funext fun a => match a with | ⟨0, _⟩ => rfl
  rw [e]; rfl

/-- `dinv[src]` at position `j`: the table at the row the source word names. -/
private theorem v70_at (x1 : IVec S2x3200000 32) (j : Fin 3300000) :
    val_main_v70 (F := Ideal) x1 (ix1 j)
      = val_main_v63 (F := Ideal) x1 (ix1 (rowOf 100000 (by norm_num) (val_main_v52 (F := Ideal) x1 (ix1 j)))) := by
  unfold val_main_v70
  have h := StableHlo.Predicate.gather_take gather_S100000_S3300000x1_S3300000_n_0_n_n_0_1_1 rfl rfl rfl rfl
    (val_main_v63 (F := Ideal) x1) (val_main_v69 (F := Ideal) x1) j (by norm_num)
  have e : (⟨min (val_main_v69 (F := Ideal) x1 (ixP j)).toInt.toNat (100000 - 1), by omega⟩ : Fin 100000)
      = rowOf 100000 (by norm_num) (val_main_v52 (F := Ideal) x1 (ix1 j)) := by
    apply Fin.ext
    show min (val_main_v69 (F := Ideal) x1 (ixP j)).toInt.toNat (100000 - 1)
      = min (normWord 100000 (val_main_v52 (F := Ideal) x1 (ix1 j))).toInt.toNat (100000 - 1)
    rw [v69_at]
  rw [← ofFin_eq_ix1 j, h, e, ofFin_eq_ix1, ofFin_eq_ix1]

/-- `dinv[dst]` at position `j`: the table at the row the destination word names. -/
private theorem v77_at (x1 : IVec S2x3200000 32) (j : Fin 3300000) :
    val_main_v77 (F := Ideal) x1 (ix1 j)
      = val_main_v63 (F := Ideal) x1 (ix1 (rowOf 100000 (by norm_num) (val_main_v55 (F := Ideal) x1 (ix1 j)))) := by
  unfold val_main_v77
  have h := StableHlo.Predicate.gather_take gather_S100000_S3300000x1_S3300000_n_0_n_n_0_1_1 rfl rfl rfl rfl
    (val_main_v63 (F := Ideal) x1) (val_main_v76 (F := Ideal) x1) j (by norm_num)
  have e : (⟨min (val_main_v76 (F := Ideal) x1 (ixP j)).toInt.toNat (100000 - 1), by omega⟩ : Fin 100000)
      = rowOf 100000 (by norm_num) (val_main_v55 (F := Ideal) x1 (ix1 j)) := by
    apply Fin.ext
    show min (val_main_v76 (F := Ideal) x1 (ixP j)).toInt.toNat (100000 - 1)
      = min (normWord 100000 (val_main_v55 (F := Ideal) x1 (ix1 j))).toInt.toNat (100000 - 1)
    rw [v76_at]
  rw [← ofFin_eq_ix1 j, h, e, ofFin_eq_ix1, ofFin_eq_ix1]

/-- The gathered rows at position `j`: the product table's row that the source word names. -/
private theorem v85_at (x0 : FVec Ideal S100000x256 .f32) (x1 : IVec S2x3200000 32) (x2 : FVec Ideal S256x16 .f32)
    (x3 : FVec Ideal S16 .f32) (x4 : FVec Ideal S16x40 .f32) (j : Fin 3300000) (q : Fin 40) :
    val_main_v85 (F := Ideal) x0 x1 x2 x3 x4 (ix2 j q)
      = val_main_v48 (F := Ideal) x0 x1 x2 x3 x4
          (ix2 (rowOf 100000 (by norm_num) (val_main_v52 (F := Ideal) x1 (ix1 j))) q) := by
  unfold val_main_v85
  have h := Cert.Lib.RowOps.gather_rows_apply gather_S100000x40_S3300000x1_S3300000x40_1_0_n_n_0_1_140
    rfl rfl rfl rfl rfl rfl rfl (val_main_v48 (F := Ideal) x0 x1 x2 x3 x4) (val_main_v84 (F := Ideal) x1) j q (by norm_num)
  have e : (⟨min (val_main_v84 (F := Ideal) x1 (ixP j)).toInt.toNat (100000 - 1), by omega⟩ : Fin 100000)
      = rowOf 100000 (by norm_num) (val_main_v52 (F := Ideal) x1 (ix1 j)) := by
    apply Fin.ext
    show min (val_main_v84 (F := Ideal) x1 (ixP j)).toInt.toNat (100000 - 1)
      = min (normWord 100000 (val_main_v52 (F := Ideal) x1 (ix1 j))).toInt.toNat (100000 - 1)
    rw [v84_at]
  rw [h, e]

/-! ## A sum over the positions whose destination word is `p` -/

/-- The self-loop positions whose word, read signed, is `p`: position `p` alone. -/
private theorem selfLoops_eq (p : Fin 100000) :
    (Finset.univ.filter fun i : Fin 100000 => (BitVec.ofNat 32 i.val).toInt = (p.val : ℤ)) = {p} := by
  ext i
  simp only [Finset.mem_filter, Finset.mem_univ, true_and, Finset.mem_singleton]
  rw [toInt_ofNat_of_lt i.val (by have := i.isLt; omega)]
  constructor
  · intro h; exact Fin.ext (by exact_mod_cast h)
  · rintro rfl; rfl

/-- A sum over the positions of the extended list whose destination word is `p`, of a term in the position's two
    words: the edges landing on `p`, then the one self loop of `p`. -/
private theorem sum_positions (x1 : IVec S2x3200000 32) (p : Fin 100000) (T : BitVec 32 → BitVec 32 → EReal) :
    ∑ j ∈ Finset.univ.filter (fun j : Fin 3300000 => (val_main_v55 (F := Ideal) x1 (ix1 j)).toInt = (p.val : ℤ)),
        T (val_main_v52 (F := Ideal) x1 (ix1 j)) (val_main_v55 (F := Ideal) x1 (ix1 j))
      = ∑ e ∈ inEdges (dstWords x1) p, T (x1 (ix2 0 e)) (dstWords x1 e)
        + T (BitVec.ofNat 32 p.val) (BitVec.ofNat 32 p.val) := by
  rw [Cert.Lib.RowOps.sum_filter_split (A := 3200000) (B := 100000) rfl]
  simp only [srcList_edge, dstList_edge, srcList_self, dstList_self]
  rw [selfLoops_eq, Finset.sum_singleton]
  rfl

/-! ## The degree and its guarded inverse square root -/

/-- Every update of the degree's scatter-add is `1`. -/
private theorem v56_at (j : Fin 3300000) : val_main_v56 (F := Ideal) (ix1 j) = 1 := by
  rw [val_main_v56_apply, val_main_cst_9_apply]; exact Cert.Consts.ofBits_one

/-- The degree, the self loop counted as one more edge of the list. -/
private theorem v59_at (x1 : IVec S2x3200000 32) (p : Fin 100000) :
    val_main_v59 (F := Ideal) x1 (ix1 p) = degR (dstWords x1) p := by
  unfold val_main_v59
  rw [Cert.Lib.RowOps.scatterAdd_vec_apply scatter_S100000_S3300000x1_S3300000_n_0_0_1 rfl rfl rfl rfl]
  simp only [v58_at, v56_at]
  have h := sum_positions x1 p (fun _ _ => (1 : EReal))
  have z : FloatOps.ofBits (F := Ideal) .f32 0x00000000#32 = 0 := Cert.Consts.ofBits_zero
  rw [h, val_main_v57_apply, val_main_cst_10_apply, z]
  unfold degR
  rfl

/-- The guarded inverse square root of the degree, as the reference's second layer computes it. -/
theorem dinv_value (x1 : IVec S2x3200000 32) (p : Fin 100000) :
    val_main_v63 (F := Ideal) x1 (ix1 p) = dinvOf (degR (dstWords x1) p) := by
  have z : FloatOps.ofBits (F := Ideal) .f32 0x00000000#32 = 0 := Cert.Consts.ofBits_zero
  rw [val_main_v63_apply, val_main_v61_apply, val_main_v62_apply, val_main_v60_apply, val_main_cst_11_apply,
    val_main_call2_v1_apply, val_main_call2_v0_apply, val_main_cst_12_apply, v59_at, z, Ideal.hostUnary_rsqrt_def]
  unfold dinvOf
  rfl

/-! ## The weighted rows and the layer -/

/-- The product table `h · W2` at `(r, q)`. -/
private theorem v48_at (x0 : FVec Ideal S100000x256 .f32) (x1 : IVec S2x3200000 32) (x2 : FVec Ideal S256x16 .f32)
    (x3 : FVec Ideal S16 .f32) (x4 : FVec Ideal S16x40 .f32) (r : Fin 100000) (q : Fin 40) :
    val_main_v48 (F := Ideal) x0 x1 x2 x3 x4 (ix2 r q)
      = ∑ k : Fin 16, val_main_v47 (F := Ideal) x0 x1 x2 x3 (ix2 r k) * x4 (ix2 k q) := by
  rw [val_main_v48_apply]
  refine Finset.sum_congr rfl fun k _ => ?_
  have el : lidx_main_v48 (ix2 r q) k = ix2 r k := funext fun a => match a with | ⟨0, _⟩ => rfl | ⟨1, _⟩ => rfl
  have er : ridx_main_v48 (ix2 r q) k = ix2 k q := funext fun a => match a with | ⟨0, _⟩ => rfl | ⟨1, _⟩ => rfl
  rw [el, er]

/-- The edge weight at position `j`, the same along the row: `dinv` at the source row times `dinv` at the destination row. -/
private theorem v87_at (x1 : IVec S2x3200000 32) (j : Fin 3300000) (q : Fin 40) :
    val_main_v87 (F := Ideal) x1 (ix2 j q)
      = dinvOf (degR (dstWords x1) (rowOf 100000 (by norm_num) (val_main_v52 (F := Ideal) x1 (ix1 j))))
        * dinvOf (degR (dstWords x1) (rowOf 100000 (by norm_num) (val_main_v55 (F := Ideal) x1 (ix1 j)))) := by
  rw [val_main_v87_apply, val_main_v86_apply]
  have e : idx_main_v86 (idx_main_v87 (ix2 j q)) = ix1 j := funext fun a => match a with | ⟨0, _⟩ => rfl
  rw [e, val_main_v78_apply, v70_at, v77_at, dinv_value, dinv_value]
  rfl

/-- The update at position `j`: the gathered row of `h · W2` times the edge weight. -/
private theorem v88_at (x0 : FVec Ideal S100000x256 .f32) (x1 : IVec S2x3200000 32) (x2 : FVec Ideal S256x16 .f32)
    (x3 : FVec Ideal S16 .f32) (x4 : FVec Ideal S16x40 .f32) (j : Fin 3300000) (q : Fin 40) :
    val_main_v88 (F := Ideal) x0 x1 x2 x3 x4 (ix2 j q)
      = (∑ k : Fin 16, val_main_v47 (F := Ideal) x0 x1 x2 x3
            (ix2 (rowOf 100000 (by norm_num) (val_main_v52 (F := Ideal) x1 (ix1 j))) k) * x4 (ix2 k q))
        * (dinvOf (degR (dstWords x1) (rowOf 100000 (by norm_num) (val_main_v52 (F := Ideal) x1 (ix1 j))))
          * dinvOf (degR (dstWords x1) (rowOf 100000 (by norm_num) (val_main_v55 (F := Ideal) x1 (ix1 j))))) := by
  rw [val_main_v88_apply, v85_at, v48_at, v87_at]
  rfl

/-- The bias row, broadcast down the table. -/
private theorem v93_at (x5 : FVec Ideal S40 .f32) (p : Fin 100000) (q : Fin 40) :
    val_main_v93 (F := Ideal) x5 (ix2 p q) = vec1 x5 q := by
  rw [val_main_v93_apply, val_main_v92_apply]
  unfold vec1
  congr 1
  funext a
  match a with | ⟨0, _⟩ => rfl

/-- The second layer's output, entry `(p, q)`, over the first layer's output `val_main_v47`. -/
theorem layer_value (x0 : FVec Ideal S100000x256 .f32) (x1 : IVec S2x3200000 32) (x2 : FVec Ideal S256x16 .f32)
    (x3 : FVec Ideal S16 .f32) (x4 : FVec Ideal S16x40 .f32) (x5 : FVec Ideal S40 .f32) (p : Fin 100000) (q : Fin 40) :
    val_main_v94 (F := Ideal) x0 x1 x2 x3 x4 x5 (ix2 p q)
      = layerR (fun p => dinvOf (degR (dstWords x1) p)) (dstWords x1) (srcRows 100000 (by norm_num) x1)
          (dstRows 100000 (by norm_num) x1)
          (fun p q => ∑ k : Fin 16, val_main_v47 (F := Ideal) x0 x1 x2 x3 (ix2 p k) * x4 (ix2 k q)) (vec1 x5) p q := by
  have z : FloatOps.ofBits (F := Ideal) .f32 0x00000000#32 = 0 := Cert.Consts.ofBits_zero
  have h := sum_positions x1 p (fun ws wd =>
    (∑ k : Fin 16, val_main_v47 (F := Ideal) x0 x1 x2 x3 (ix2 (rowOf 100000 (by norm_num) ws) k) * x4 (ix2 k q))
      * (dinvOf (degR (dstWords x1) (rowOf 100000 (by norm_num) ws))
        * dinvOf (degR (dstWords x1) (rowOf 100000 (by norm_num) wd))))
  rw [rowOf_ofNat (by norm_num) (by norm_num) p] at h
  rw [val_main_v94_apply, v93_at]
  unfold val_main_v91
  rw [Cert.Lib.RowOps.scatterAdd_rows_apply scatter_S100000x40_S3300000x1_S3300000x40_1_0_0_1 rfl rfl rfl rfl]
  simp only [v90_at, v88_at]
  rw [h, val_main_v89_apply, val_main_cst_19_apply, z]
  rfl

end Cert.ReferenceIdeal.RefL2

end
-- ==== Proof.SpecAlgebra.lean ====
/-
  The two arrangements of the network agree on finite inputs.

  Both degrees are the number of incoming edges plus one, a positive real, so the guarded inverse square root is a real
  whichever branch the guard takes. A sum of products of reals is a real, and so is its maximum with zero. With every
  factor real, scaling a sum is summing the scaled terms, and the two arrangements of a layer are one real number.
-/
import proofs.«428375_j76158360092902_4_alg».proof.Proof.Spec

noncomputable section

open scoped BigOperators

namespace Cert.GCN

open Idealize.ShloMosaic

variable {N E K0 H C : ℕ}

/-! ## Real values among the extended reals -/

/-- An extended real that is a real number. -/
private abbrev IsReal (a : EReal) : Prop := ∃ r : ℝ, a = (r : EReal)

private theorem isReal_zero : IsReal 0 := ⟨0, rfl⟩

private theorem isReal_add {a b : EReal} (ha : IsReal a) (hb : IsReal b) : IsReal (a + b) := by
  obtain ⟨r, rfl⟩ := ha
  obtain ⟨s, rfl⟩ := hb
  exact ⟨r + s, (EReal.coe_add r s).symm⟩

private theorem isReal_mul {a b : EReal} (ha : IsReal a) (hb : IsReal b) : IsReal (a * b) := by
  obtain ⟨r, rfl⟩ := ha
  obtain ⟨s, rfl⟩ := hb
  exact ⟨r * s, (EReal.coe_mul r s).symm⟩

private theorem isReal_max_zero {a : EReal} (ha : IsReal a) : IsReal (max a 0) := by
  rcases le_total a 0 with h | h
  · rw [max_eq_right h]; exact isReal_zero
  · rw [max_eq_left h]; exact ha

/-- A finite sum of reals is a real. -/
private theorem isReal_sum {ι : Type} (s : Finset ι) (f : ι → EReal) (hf : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact isReal_add (hf a (Finset.mem_insert_self a s)) (ih fun i hi => hf i (Finset.mem_insert_of_mem hi))

/-- The inclusion of the reals commutes with finite sums. -/
private theorem coe_sum {ι : Type} (s : Finset ι) (f : ι → ℝ) :
    ∑ i ∈ s, ((f i : ℝ) : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-! ## Degrees and their inverse square roots -/

/-- Counting one per element gives the number of elements. -/
private theorem sum_one {ι : Type} (s : Finset ι) : ∑ _e ∈ s, (1 : EReal) = ((s.card : ℝ) : EReal) := by
  rw [← EReal.coe_one, coe_sum, Finset.sum_const, nsmul_eq_mul, mul_one]

/-- The two ways of counting a degree agree. -/
private theorem degK_eq_degR (dst : Fin E → BitVec 32) (p : Fin N) : degK dst p = degR dst p := by
  unfold degK degR
  rw [add_assoc]

/-- A degree is the number of incoming edges plus one. -/
private theorem degR_eq (dst : Fin E → BitVec 32) (p : Fin N) :
    degR dst p = ((((inEdges dst p).card : ℝ) + 1 : ℝ) : EReal) := by
  unfold degR
  rw [zero_add, sum_one, EReal.coe_add, EReal.coe_one]

/-- The guarded inverse square root of a positive real is a real, whichever branch the guard takes. -/
private theorem isReal_dinvOf (r : ℝ) (hr : 0 < r) : IsReal (dinvOf (r : EReal)) := by
  unfold dinvOf Scalar.select
  split
  · rw [Ideal.rsqrt_coe, if_neg (not_lt.mpr hr.le), if_neg hr.ne']
    exact ⟨_, rfl⟩
  · exact isReal_zero

/-! ## One layer -/

/-- One layer in its second arrangement is real when every ingredient is. -/
private theorem isReal_layerR {Fd : ℕ} (dinv : Fin N → EReal) (dst : Fin E → BitVec 32) (srow drow : Fin E → Fin N)
    (z : Fin N → Fin Fd → EReal) (b : Fin Fd → EReal) (hd : ∀ p, IsReal (dinv p)) (hz : ∀ p q, IsReal (z p q))
    (hb : ∀ q, IsReal (b q)) (p : Fin N) (q : Fin Fd) : IsReal (layerR dinv dst srow drow z b p q) := by
  unfold layerR
  exact isReal_add
    (isReal_add isReal_zero
      (isReal_add (isReal_sum _ _ fun e _ => isReal_mul (hz _ _) (isReal_mul (hd _) (hd _)))
        (isReal_mul (hz p q) (isReal_mul (hd p) (hd p)))))
    (hb q)

/-- The two arrangements of one layer agree when the scaling factors and the table are real: the destination row of
    an edge landing on `p` is `p`, and over the reals scaling a sum is summing the scaled terms. -/
private theorem layer_eq {Fd : ℕ} (dinv : Fin N → EReal) (dst : Fin E → BitVec 32) (srow drow : Fin E → Fin N)
    (z : Fin N → Fin Fd → EReal) (b : Fin Fd → EReal) (hd : ∀ p, IsReal (dinv p)) (hz : ∀ p q, IsReal (z p q))
    (hdrow : ∀ (e : Fin E) (p : Fin N), (dst e).toInt = (p.val : ℤ) → drow e = p) (p : Fin N) (q : Fin Fd) :
    layerK dinv dst srow z b p q = layerR dinv dst srow drow z b p q := by
  choose d hd using hd
  choose w hz using hz
  unfold layerK layerR
  have h1 : ∑ e ∈ inEdges dst p, z (srow e) q * (dinv (srow e) * dinv (drow e))
      = ∑ e ∈ inEdges dst p, (((w (srow e) q) * (d (srow e) * d p) : ℝ) : EReal) := by
    refine Finset.sum_congr rfl fun e he => ?_
    rw [hdrow e p (Finset.mem_filter.mp he).2, hz, hd, hd, ← EReal.coe_mul, ← EReal.coe_mul]
  have h2 : ∑ e ∈ inEdges dst p, dinv (srow e) * z (srow e) q
      = ∑ e ∈ inEdges dst p, ((d (srow e) * w (srow e) q : ℝ) : EReal) := by
    refine Finset.sum_congr rfl fun e _ => ?_
    rw [hz, hd, ← EReal.coe_mul]
  rw [h1, h2, coe_sum, coe_sum, hd p, hz p q, zero_add, zero_add, ← EReal.coe_mul, ← EReal.coe_mul, ← EReal.coe_mul,
    ← EReal.coe_add, ← EReal.coe_add, ← EReal.coe_mul]
  congr 2
  rw [mul_add, Finset.mul_sum]
  congr 1
  · exact Finset.sum_congr rfl fun e _ => by ring
  · ring

/-! ## Two layers -/

/-- The two arrangements of the two-layer network are equal at every entry when the features, both weight tables and
    the first bias are real, and the clamped destination row of an edge landing on `p` is `p`. -/
theorem out_eq (x : Fin N → Fin K0 → EReal) (dst : Fin E → BitVec 32) (srow drow : Fin E → Fin N)
    (W1 : Fin K0 → Fin H → EReal) (b1 : Fin H → EReal) (W2 : Fin H → Fin C → EReal) (b2 : Fin C → EReal)
    (hx : ∀ p k, ∃ r : ℝ, x p k = (r : EReal)) (hW1 : ∀ k q, ∃ r : ℝ, W1 k q = (r : EReal))
    (hb1 : ∀ q, ∃ r : ℝ, b1 q = (r : EReal)) (hW2 : ∀ k q, ∃ r : ℝ, W2 k q = (r : EReal))
    (hdrow : ∀ (e : Fin E) (p : Fin N), (dst e).toInt = (p.val : ℤ) → drow e = p) (p : Fin N) (q : Fin C) :
    outK x dst srow W1 b1 W2 b2 p q = outR x dst srow drow W1 b1 W2 b2 p q := by
  have hdeg : (fun p : Fin N => dinvOf (degK dst p)) = fun p : Fin N => dinvOf (degR dst p) :=
    funext fun p => by rw [degK_eq_degR]
  have hdinv : ∀ p : Fin N, IsReal (dinvOf (degR dst p)) := fun p => by
    rw [degR_eq]
    exact isReal_dinvOf _ (by positivity)
  have hz1 : ∀ (p : Fin N) (q : Fin H), IsReal (∑ k, x p k * W1 k q) := fun p q =>
    isReal_sum _ _ fun k _ => isReal_mul (hx p k) (hW1 k q)
  have hL1 : ∀ (p : Fin N) (k : Fin H),
      layerK (fun p => dinvOf (degR dst p)) dst srow (fun p q => ∑ k, x p k * W1 k q) b1 p k
        = layerR (fun p => dinvOf (degR dst p)) dst srow drow (fun p q => ∑ k, x p k * W1 k q) b1 p k :=
    fun p k => layer_eq _ dst srow drow _ b1 hdinv hz1 hdrow p k
  unfold outK outR
  rw [hdeg]
  simp only [hL1]
  refine layer_eq _ dst srow drow _ b2 hdinv (fun p q => ?_) hdrow p q
  exact isReal_sum _ _ fun k _ =>
    isReal_mul (isReal_max_zero (isReal_layerR _ dst srow drow _ b1 hdinv hz1 hb1 p k)) (hW2 k q)

end Cert.GCN

end
-- ==== Proof.Finite.lean ====
/-
  From the precondition to real numbers: the precondition says that the absolute value of every entry of each float
  input is below `+∞`, and an extended real whose absolute value is below `+∞` is a real number.
-/
import proofs.«428375_j76158360092902_4_alg».proof.Pre_finite_inputs
import proofs.«428375_j76158360092902_4_alg».proof.Proof.Gen.Pre_finite_inputs
import Idealize.ShloMosaic.PureOps.Ideal.Laws
import Idealize.ShloMosaic.Lib.ReduceAll
import Idealize.ShloMosaic.Lib.ValueIdx

noncomputable section

namespace Cert.Finite

open Idealize.ShloMosaic Cert.Pre_finite_inputs

/-- The scalar shape has exactly one index. -/
private instance subsingleton_scalar_idx : Subsingleton S_.Idx := ⟨fun a b => funext fun d => d.elim0⟩

/-- The binary32 pattern `0x7F800000` (exponent all ones, significand zero, sign clear) denotes `+∞`. -/
private theorem ofBits_inf : Ideal.ofBits .f32 0x7F800000#32 = ⊤ := by simp [Ideal.ofBits, Ideal.ieee]

/-- An extended real `x` with `max x (-x) < +∞` is a real number: at `x = -∞` and at `x = +∞` that maximum is `+∞`. -/
private theorem real_of_abs_lt_inf (x : EReal)
    (hx : Ideal.cmp .olt (max x (-x)) (Ideal.ofBits .f32 0x7F800000#32) = 1#1) : ∃ r : ℝ, x = (r : EReal) := by
  rw [ofBits_inf] at hx
  induction x using EReal.rec with
  | bot => simp [Ideal.cmp] at hx
  | coe r => exact ⟨r, rfl⟩
  | top => simp [Ideal.cmp] at hx

/-- One conjunct of the precondition: if the conjunction over all entries of `|a| < +∞` holds, every entry of `a`
    is a real number. -/
private theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ValueIdx.ix0 = 1#1) :
    ∀ i, ∃ r : ℝ, a i = (r : EReal) := by
  intro i
  have hi := Host.reduce_andi_all _ _ hr hu _ e i
  exact real_of_abs_lt_inf (a i) hi

/-- Under the precondition every entry of every float input is a real number. -/
theorem real_of_pre [Cert.Pre_finite_inputs.Facts] (a0 : FVec Ideal S100000x256 .f32) (a1 : IVec S2x3200000 32)
    (a2 : FVec Ideal S256x16 .f32) (a3 : FVec Ideal S16 .f32) (a4 : FVec Ideal S16x40 .f32) (a5 : FVec Ideal S40 .f32)
    (h : Cert.Pre_finite_inputs.fn (F := Ideal) a0 a1 a2 a3 a4 a5 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) := by
  have h0 := congrFun h ValueIdx.ix0
  dsimp only [Cert.Pre_finite_inputs.fn, Cert.Pre_finite_inputs.fn_part1] at h0
  obtain ⟨h1, e5⟩ := IntOp.andi_eq_one.1 h0
  obtain ⟨h2, e4⟩ := IntOp.andi_eq_one.1 h1
  obtain ⟨h3, e3⟩ := IntOp.andi_eq_one.1 h2
  obtain ⟨e0, e2⟩ := IntOp.andi_eq_one.1 h3
  exact ⟨all_real a0 _ _ _ e0, all_real a2 _ _ _ e2, all_real a3 _ _ _ e3, all_real a4 _ _ _ e4,
    all_real a5 _ _ _ e5⟩

end Cert.Finite

end
-- ==== Proof.Bridge.lean ====
/-
  The two programs compute one function.

  The reference's result, read entry by entry, is the network in its "edge weights first" arrangement; the kernel
  program's is the "scaled tables first" arrangement of the same arguments. On finite inputs the two arrangements are equal,
  the destination row of an edge that lands on a node being that node.
-/
import proofs.«428375_j76158360092902_4_alg».proof.Defs
import proofs.«428375_j76158360092902_4_alg».proof.Proof.KRun
import proofs.«428375_j76158360092902_4_alg».proof.Proof.KValue
import proofs.«428375_j76158360092902_4_alg».proof.Proof.RefRun
import proofs.«428375_j76158360092902_4_alg».proof.Proof.RefRead
import proofs.«428375_j76158360092902_4_alg».proof.Proof.RefL1
import proofs.«428375_j76158360092902_4_alg».proof.Proof.RefL2
import proofs.«428375_j76158360092902_4_alg».proof.Proof.SpecAlgebra
import proofs.«428375_j76158360092902_4_alg».proof.Proof.IndexWords
import proofs.«428375_j76158360092902_4_alg».proof.Proof.Finite
import proofs.«428375_j76158360092902_4_alg».proof.Proof.Gen.Pre_finite_inputs

set_option maxRecDepth 16384

noncomputable section

open scoped BigOperators

namespace Cert.Bridge

open Idealize.ShloMosaic Idealize.ShloMosaic.TcCoe Idealize.SL.Sem Idealize.ShloMosaic.ValueIdx Cert.GCN

/-- The reference's result at `(p, q)`, as a function of its argument arrays: the network, edge weights first. -/
theorem ref_apply (x0 : FVec Ideal Cert.ReferenceIdeal.S100000x256 .f32) (x1 : IVec Cert.ReferenceIdeal.S2x3200000 32)
    (x2 : FVec Ideal Cert.ReferenceIdeal.S256x16 .f32) (x3 : FVec Ideal Cert.ReferenceIdeal.S16 .f32)
    (x4 : FVec Ideal Cert.ReferenceIdeal.S16x40 .f32) (x5 : FVec Ideal Cert.ReferenceIdeal.S40 .f32) (p : Fin 100000) (q : Fin 40) :
    Cert.ReferenceIdeal.ReadP.val_main_v94 (F := Ideal) x0 x1 x2 x3 x4 x5 (ix2 p q)
      = outR (tab2 x0) (dstWords x1) (srcRows 100000 (by norm_num) x1) (dstRows 100000 (by norm_num) x1) (tab2 x2) (vec1 x3)
          (tab2 x4) (vec1 x5) p q := by
  rw [Cert.ReferenceIdeal.RefL2.layer_value]
  unfold outR
  refine congrArg (fun z => layerR (fun p => dinvOf (degR (dstWords x1) p)) (dstWords x1) (srcRows 100000 (by norm_num) x1)
    (dstRows 100000 (by norm_num) x1) z (vec1 x5) p q) ?_
  funext p' q'
  refine Finset.sum_congr rfl fun k _ => ?_
  rw [Cert.ReferenceIdeal.RefL1.layer_value]
  rfl

open Cert.KernelIdeal.KValue in
/-- On finite arguments the reference's result term, at the kernel program's arguments, is the kernel program's result
    array: entry by entry both are the network, and its two arrangements agree. -/
theorem value_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_finite_inputs.fn (F := Ideal) (A0 m c) (A1 m c) (A2 m c) (A3 m c) (A4 m c) (A5 m c) = fun _ => 1#1) :
    Cert.ReferenceIdeal.ReadP.val_main_v94 (F := Ideal) (A0 m c) (A1 m c) (A2 m c) (A3 m c) (A4 m c) (A5 m c)
      = Cert.KernelIdeal.Gen.W9 m ρ c (Proc.devRef .tc Cert.KernelIdeal.main_v40) := by
  obtain ⟨h0, h2, h3, h4, -⟩ := Cert.Finite.real_of_pre _ _ _ _ _ _ hpre
  funext i
  obtain ⟨p, q, rfl⟩ : ∃ (p : Fin 100000) (q : Fin 40), i = ix2 p q := ⟨i 0, i 1, eq_ix2 i⟩
  refine (ref_apply _ _ _ _ _ _ p q).trans ?_
  refine ((out_eq (tab2 (A0 m c)) (dstWords (A1 m c)) (srcRows 100000 (by norm_num) (A1 m c)) (dstRows 100000 (by norm_num) (A1 m c))
    (tab2 (A2 m c)) (vec1 (A3 m c)) (tab2 (A4 m c)) (vec1 (A5 m c)) (fun p k => h0 (ix2 p k)) (fun k q => h2 (ix2 k q))
    (fun q => h3 (ix1 q)) (fun k q => h4 (ix2 k q))
    (fun e p h => rowOf_of_toInt (by norm_num) (by norm_num) _ p h) p q).symm).trans ?_
  exact (result_apply m ρ c p q).symm

/-- The two idealized programs, run from memories that agree on the arguments, end with equal results. -/
theorem algebraic : Cert.algebraic_KernelIdeal_ReferenceIdeal := by
  intro m ρ m' ρ' hpre hagree
  refine ⟨fun c => Cert.KernelIdeal.Gen.W9 m ρ c (Proc.devRef .tc Cert.KernelIdeal.main_v40),
    Cert.KernelIdeal.GenV.run_value m ρ, ?_⟩
  refine (θ_run Cert.ReferenceIdeal.defs _ _).mono (fun r h c => ⟨(h c).1.trans ?_, (h c).2⟩)
    (Cert.ReferenceIdeal.ValueP.run (F := Ideal) m' ρ')
  rw [Cert.ReferenceIdeal.ReadP.val_main_v94_eq, (hagree c).1, (hagree c).2.1, (hagree c).2.2.1, (hagree c).2.2.2.1,
    (hagree c).2.2.2.2.1, (hagree c).2.2.2.2.2]
  exact value_eq m ρ c (hpre c)

end Cert.Bridge

end
-- ==== Proof.lean ====
/-
  The certificate of a two-layer graph convolution kernel against its reference.

  The kernel program runs four tiled regions (two products fused with the degree scaling, two combining passes) among
  host gathers and scatter-adds; the reference builds per-edge weights and scatter-adds weighted rows, self loops included
  as extra edges. Each program's run is read back as a function of the arguments, entry by entry; the two functions are two
  arrangements of one sum, equal by distributivity once every factor is known to be a real number, which the finiteness of the
  inputs and the positivity of the degrees give. The frames are the runs with the values dropped; nothing was rewritten by
  the idealization.
-/
import proofs.«428375_j76158360092902_4_alg».proof.Defs
import proofs.«428375_j76158360092902_4_alg».proof.Proof.Gen.Kernel
import proofs.«428375_j76158360092902_4_alg».proof.Proof.Gen.Kernel.Skeleton
import proofs.«428375_j76158360092902_4_alg».proof.Proof.Gen.Kernel.Launch
import proofs.«428375_j76158360092902_4_alg».proof.Proof.Gen.Kernel.Points
import proofs.«428375_j76158360092902_4_alg».proof.Proof.Gen.Kernel.Frame
import proofs.«428375_j76158360092902_4_alg».proof.Proof.Gen.KernelIdeal
import proofs.«428375_j76158360092902_4_alg».proof.Proof.Gen.KernelIdeal.Skeleton
import proofs.«428375_j76158360092902_4_alg».proof.Proof.Gen.KernelIdeal.Launch
import proofs.«428375_j76158360092902_4_alg».proof.Proof.Gen.KernelIdeal.Points
import proofs.«428375_j76158360092902_4_alg».proof.Proof.Gen.KernelIdeal.Frame
import proofs.«428375_j76158360092902_4_alg».proof.Proof.Gen.ReferenceIdeal
import proofs.«428375_j76158360092902_4_alg».proof.Proof.Gen.Pre_finite_inputs
import proofs.«428375_j76158360092902_4_alg».proof.Proof.RefRun
import proofs.«428375_j76158360092902_4_alg».proof.Proof.Bridge
import Idealize.ShloMosaic.Adequacy
import Idealize.ShloMosaic.Init

noncomputable section

namespace Cert.Proof

open Idealize.ShloMosaic Idealize.SL.Sem Cert.Kernel

/-- Every execution of the word-level kernel program terminates without a fault and leaves its arguments unchanged. -/
theorem frame_k : Cert.frame_Kernel := fun m ρ _ => Cert.Kernel.Gen.frame m ρ

/-- The same for the idealized kernel program. -/
theorem frame_ki : Cert.frame_KernelIdeal := fun m ρ _ => Cert.KernelIdeal.Gen.frame m ρ

/-- The same for the idealized reference: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Bridge.algebraic⟩

end Cert.Proof

end
